-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S32x4096 : Shape := ⟨2, ![32, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S32x4096 : S_.BroadcastsInDim S32x4096 (![] : Fin 0 → Fin S32x4096.rank)
  reducesTo_S32x4096_S_d0_1 : S32x4096.ReducesTo [0, 1] S_

variable [Facts]

def fn_part1 {F : FTy → Type} [FloatOps F] (main_v13 : IVec S_ 1) (main_v16 : IVec S32x4096 1) : IVec S_ 1 :=
  let main_c_5 : IVec S_ 1 := constantI S_ 1 1#1
  let main_v17 : IVec S_ 1 := (fun x v => Host.reduce IntOp.andi x v reducesTo_S32x4096_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096 .f32) (main_arg3 : FVec F S32x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S32x4096 .f32 := Host.absf main_arg3
  let main_cst_4 : FVec F S_ .f32 := constant S_ .f32 0x7F800000#32
  let main_v15 : FVec F S32x4096 .f32 := broadcastInDim S32x4096 ![] bcast_S_S32x4096 main_cst_4
  let main_v16 : IVec S32x4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S32x4096 : Shape := ⟨2, ![32, 4096]⟩
abbrev S1024x1024 : Shape := ⟨2, ![1024, 1024]⟩
abbrev S8x1024 : Shape := ⟨2, ![8, 1024]⟩
abbrev S8x128x1024 : Shape := ⟨3, ![8, 128, 1024]⟩
abbrev S8x1x1024 : Shape := ⟨3, ![8, 1, 1024]⟩
abbrev S8192x4096 : Shape := ⟨2, ![8192, 4096]⟩
abbrev S1x4096 : Shape := ⟨2, ![1, 4096]⟩
abbrev S1x1024 : Shape := ⟨2, ![1, 1024]⟩

abbrev nBuf : Space → Nat
  | .hbm => 9
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S32x4096, .f32⟩
  | .hbm, ⟨4, _⟩ => ⟨S4096x4096, .bf16⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  shapeCasts_S1024x1024_S8x128x1024 : S1024x1024.ShapeCasts S8x128x1024
  inb_S8x1024_S8x1024_0_0 : ∀ a, (![0, 0] : Fin 2 → Nat) a + S8x1024.size a ≤ S8x1024.size a
  h_S8x1024 : 0 < S8x1024.numel
  shapeCasts_S8x1024_S8x1x1024 : S8x1024.ShapeCasts S8x1x1024
  broadcasts_S8x1x1024_S8x128x1024 : S8x1x1024.Broadcasts S8x128x1024
  shapeCasts_S8x128x1024_S1024x1024 : S8x128x1024.ShapeCasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S4x2048x4096_S8192x4096 : S4x2048x4096.ShapeCasts S8192x4096
  shapeCasts_S4096_S1x4096 : S4096.ShapeCasts S1x4096
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S32x4096.size a
  hwx0_1 : ∀ i : grid0.Coords, EltTy.bits .f32 = 32 ∨ (Rect.block (s := S32x4096) S8x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S32x4096 : Shape := ⟨2, ![32, 4096]⟩
abbrev S32x128x4096 : Shape := ⟨3, ![32, 128, 4096]⟩
abbrev S32x1x4096 : Shape := ⟨3, ![32, 1, 4096]⟩
abbrev S_ : Shape := ⟨0, ![]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S32x4096, .f32⟩
  | .hbm, ⟨4, _⟩ => ⟨S4096x4096, .f32⟩
  | .hbm, ⟨5, _⟩ => ⟨S32x128x4096, .f32⟩
  | .hbm, ⟨6, _⟩ => ⟨S32x1x4096, .f32⟩
  | .hbm, ⟨7, _⟩ => ⟨S_, .f32⟩
  | .hbm, ⟨8, _⟩ => ⟨S32x1x4096, .f32⟩
  | .hbm, ⟨9, _⟩ => ⟨S32x1x4096, .f32⟩
  | .hbm, ⟨10, _⟩ => ⟨S32x128x4096, .f32⟩
  | .hbm, ⟨11, _⟩ => ⟨S32x128x4096, .f32⟩
  | .hbm, ⟨12, _⟩ => ⟨S32x128x4096, .f32⟩
  | .hbm, ⟨13, _⟩ => ⟨S32x128x4096, .f32⟩
  | .hbm, ⟨14, _⟩ => ⟨S32x128x4096, .f32⟩
  | .hbm, ⟨15, _⟩ => ⟨S4096x4096, .f32⟩
  | .hbm, ⟨16, _⟩ => ⟨S4x2048x4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  transposes_S4096x4096_S4096x4096_1_0 : S4096x4096.Transposes [1, 0] S4096x4096
  shapeCasts_S4096x4096_S32x128x4096 : S4096x4096.ShapeCasts S32x128x4096
  bcast_S32x4096_S32x1x4096_0_2 : S32x4096.BroadcastsInDim S32x1x4096 (![0, 2] : Fin 2 → Fin S32x1x4096.rank)
  bcast_S_S32x1x4096 : S_.BroadcastsInDim S32x1x4096 (![] : Fin 0 → Fin S32x1x4096.rank)
  bcast_S32x1x4096_S32x128x4096_0_1_2 : S32x1x4096.BroadcastsInDim S32x128x4096 (![0, 1, 2] : Fin 3 → Fin S32x128x4096.rank)
  shapeCasts_S32x128x4096_S4096x4096 : S32x128x4096.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_0_01_1_n_n_wf : DotDims.WF S4x2048x4096 S4096x4096 S4x2048x4096 [2] [0] [0, 1] [1] [] []

variable [Facts₀]

def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf

class Facts : Prop extends Facts₀ where

variable [Facts]
-- ==== Proof.FrameB.R0.lean ====
/-
  Region 0 (the group dequantisation of the weight matrix) at the contents `V` its core holds on entry.
  Grid (j, gi): the body loads the [1024 out-channels, 1024 in-features] tile of the weight and the [8 groups, 1024
  out-channels] tile of the steps, and stores the transposed, quantised [1024 in-features, 1024 out-channels] tile.
  Every window is fetched / written back at every point, the body keeps nothing between points, and its one store covers
  the output block: what the block holds after the body is the store's payload of the two input blocks.
-/
import proofs.«180972_j34677565948161_1_alg».proof.Proof.Gen.Kernel.Launch
import proofs.«180972_j34677565948161_1_alg».proof.Proof.Gen.Kernel.Skeleton
import proofs.«180972_j34677565948161_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight tile is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The steps' tile is in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole [1024, 1024] tile (the weight tile loaded, the output tile stored). -/
abbrev r0_0 : Rect S1024x1024 := Rect.unit (s := S1024x1024) ![0, 0] S1024x1024.size inb_S1024x1024_S1024x1024_0_0
/-- The whole [8, 1024] tile of steps. -/
abbrev r0_1 : Rect S8x1024 := Rect.unit (s := S8x1024) ![0, 0] S8x1024.size inb_S8x1024_S8x1024_0_0

/-! ## What the body leaves in the output block -/

/-- The output tile after the body: its one store's payload of the two loaded tiles. -/
def out0_2 (x0 : Vec F S1024x1024 .f32) (x1 : Vec F S8x1024 .f32) : Vec F S1024x1024 .bf16 :=
  View.canon [⟨r0_0, k0_pay1 (View.ld x0 r0_0) (View.ld x1 r0_1)⟩]

/-- The store covers the tile. -/
theorem cover0_2 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg2 : Memref sig .tc .vmem S1024x1024 .f32) (harg2 : arg2.IsWhole)
    (arg3 : Memref sig .tc .vmem S8x1024 .f32) (harg3 : arg3.IsWhole) (arg4 : Memref sig .tc .vmem S1024x1024 .bf16) (harg4 : arg4.IsWhole)
    (x0 : Vec F S1024x1024 .f32) (x1 : Vec F S8x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__dequant_kernel i arg2 harg2 arg3 harg3 arg4 harg4) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- Pipeline 0's proof data on core `c`: the arrays as found; after the body each input's buffer at its block and the
    output's at `out0_2` of the two input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.FrameB.R1Shared.lean ====
/-
  Region 1 (the K-blocked matmul with its accumulator scratch): what its three control cases share.
  The grid is (i, j, k) with k innermost, so point t has k = t % 4: the accumulator is zeroed when k = 0 and the
  output block is stored when k = 3.
-/
import proofs.«180972_j34677565948161_1_alg».proof.Proof.Gen.Kernel.Launch
import proofs.«180972_j34677565948161_1_alg».proof.Proof.Gen.Kernel.Skeleton
import proofs.«180972_j34677565948161_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions, in closed form over the grid -/

/-- "k = 0": the accumulator is zeroed. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from k = 3 the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S1024x1024 .f32 := (Memref.whole cc1_stg3_0 : Memref sig .tc .vmem S1024x1024 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator scratch, a whole scoped buffer of the kernel's own. -/
abbrev scM1 : Memref sig .tc .vmem S1024x1024 .f32 := Memref.whole cc1_scratch0
abbrev VS1 : View sig .tc .vmem S1024x1024 .f32 := scM1.view

/-- A scoped buffer held whole at some contents. -/
abbrev anyAt (c : Dev nD) (b : Ref sig .tc) : sProp 𝕄 :=
  iprop(∃ f : Buf (Elt F) ((c : Thread nD τ).loc b), ((c : Thread nD τ).loc b) ↦{fullShare} f)

/-- The class invariant with the accumulator split off: region 0's six staging buffers at anything, the accumulator
    at anything, the generator register at some state. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ anyAt c cc0_stg2_0 ∗ anyAt c cc0_stg2_1 ∗ (∃ d, owns (c : Thread nD τ) scM1 fullShare d)) ∗ (∃ r, prngReg c r)) := by
  unfold Pipeline.ΦA; rw [scopedRest1_eq]; simp only [scM1, owns_whole]; try rfl

end Cert.Kernel.Frm

end
-- ==== Proof.FrameB.R1Runs.lean ====
/-
  Region 1's body, run once per control case. Each run is a subtype: the pieces the stores leave in the accumulator
  (and, when k = 3, in the output block), last first, with the proof that the body — on whole staging memrefs holding
  the three input blocks, the accumulator at what the point before left (at anything when k = 0, where it is zeroed
  first), the output block handed back untouched where nothing is stored into it — runs to a continuation holding
  exactly that. The piece lists are found by the run itself.
-/
import proofs.«180972_j34677565948161_1_alg».proof.Proof.FrameB.R1Shared

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case A, k = 0: the accumulator is zeroed, then the product of the two blocks is added; nothing is stored into the output block. -/
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case B, k = 1 or 2: the product of the two blocks is added to the accumulator; nothing is stored into the output block. -/
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case C, k = 3: the last product is added to the accumulator, and the accumulator plus the bias row is stored into the output block. -/
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Frm

end
-- ==== Proof.FrameB.R1.lean ====
/-
  Region 1 (the K-blocked matmul) at the contents `V` its core holds on entry: what the accumulator scratch and the
  output block hold after each grid point, the proof data, and the body obligation.
  Point t = (i, j, k) with k = t % 4 innermost. The accumulator after point t is the case's pieces read back: zero plus
  the first product when k = 0, what point t − 1 left plus the product otherwise; the output block is stored (and
  written back) only when k = 3, and is idle elsewhere.
-/
import proofs.«180972_j34677565948161_1_alg».proof.Proof.FrameB.R1Runs

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, fetched there or not (the bias row is fetched only
    when j moves: in between its index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

section Cases
variable (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)

/-- Case A stores nothing into the output block: a placeholder nothing consults (the window is idle and not written back). -/
def out1_A_3 (hc0 : cond1_0 i) (hc1 : ¬cond1_1 i) (x0 : Vec F S1024x1024 .f32) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)
/-- Case A's pieces cover the accumulator. -/
theorem scover1_A (hc0 : cond1_0 i) (hc1 : ¬cond1_1 i) (x0 : Vec F S1024x1024 .f32) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y
/-- What case A leaves in the accumulator. -/
def sout1_A (hc0 : cond1_0 i) (hc1 : ¬cond1_1 i) (x0 : Vec F S1024x1024 .f32) (x1 : Vec F S1024x1024 .bf16) (x2 : Vec F S1x1024 .f32) : Vec F S1024x1024 .f32 :=
  VS1.read (Elt F) (VS1.writes (Elt F) VS1.junk (kernelRun1_A c i arg3 harg3 arg4 harg4 arg5 harg5 arg6 harg6 arg7 harg7 hc0 hc1 x0 x1 x2).2.1)

/-- Case B stores nothing into the output block either. -/
def out1_B_3 (hc0 : ¬cond1_0 i) (hc1 : ¬cond1_1 i) (x0 : Vec F S1024x1024 .f32) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B (hc0 : ¬cond1_0 i) (hc1 : ¬cond1_1 i) (x0 : Vec F S1024x1024 .f32) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y
/-- What case B leaves in the accumulator, over what the point before left (`xs0`). -/
def sout1_B (hc0 : ¬cond1_0 i) (hc1 : ¬cond1_1 i) (x0 : Vec F S1024x1024 .f32) (x1 : Vec F S1024x1024 .bf16) (x2 : Vec F S1x1024 .f32) (xs0 : Vec F S1024x1024 .f32) : Vec F S1024x1024 .f32 :=
  VS1.read (Elt F) (VS1.writes (Elt F) VS1.junk (kernelRun1_B c i arg3 harg3 arg4 harg4 arg5 harg5 arg6 harg6 arg7 harg7 hc0 hc1 x0 x1 x2 xs0).2.1)

/-- Case C's store covers the output block. -/
theorem cover1_C_3 (hc0 : ¬cond1_0 i) (hc1 : cond1_1 i) (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y
/-- What case C leaves in the output block. -/
def out1_C_3 (hc0 : ¬cond1_0 i) (hc1 : cond1_1 i) (x0 : Vec F S1024x1024 .f32) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C (hc0 : ¬cond1_0 i) (hc1 : cond1_1 i) (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y
/-- What case C leaves in the accumulator. -/
def sout1_C (hc0 : ¬cond1_0 i) (hc1 : cond1_1 i) (x0 : Vec F S1024x1024 .f32) (x1 : Vec F S1024x1024 .bf16) (x2 : Vec F S1x1024 .f32) (xs0 : Vec F S1024x1024 .f32) : Vec F S1024x1024 .f32 :=
  VS1.read (Elt F) (VS1.writes (Elt F) VS1.junk (kernelRun1_C c i arg3 harg3 arg4 harg4 arg5 harg5 arg6 harg6 arg7 harg7 hc0 hc1 x0 x1 x2 xs0).2.1)

end Cases

/-! ## What the output block and the accumulator hold after each point -/

/-- After the body at position `n`: (the output block, the accumulator) — the case the closed forms select, run at the
    point's memrefs and input blocks, over the accumulator position `n - 1` left. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the start the class invariant (the accumulator at anything); afterwards the same scoped
    rest with the accumulator at what position `n - 1` left. -/
def PhiS (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg1_1 ∗ anyAt c cc0_stg2_0 ∗ anyAt c cc0_stg2_1 ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyAt c cc0_stg0_0 ∗ anyAt c cc0_stg0_1 ∗ anyAt c cc0_stg1_0 ∗ anyAt c cc0_stg1_1 ∗ anyAt c cc0_stg2_0 ∗ anyAt c cc0_stg2_1 ∗ owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(iprop(anyAt c cc0_stg0_0 ∗ anyAt c cc0_stg0_1 ∗ anyAt c cc0_stg1_0 ∗ anyAt c cc0_stg1_1 ∗ anyAt c cc0_stg2_0 ∗ anyAt c cc0_stg2_1 ∗ owns (c : Thread nD τ) scM1 fullShare ((outsAt1 V c (n - 1) (by omega)).2)) ∗ (∃ r, prngReg c r)) := by
  cases n with
  | zero => exact absurd rfl hz
  | succ n => rfl

/-! ## The proof data -/

/-- Pipeline 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Frm

end
-- ==== Proof.FrameB.R1Body.lean ====
/-
  Region 1's body obligation: at every grid point the closed forms of the two conditions say which case the point is
  in; that case's run applies with the accumulator handed over at what the point before left (at anything at the first
  point, where it is zeroed) and taken back at this point's contents; the output block is handed back untouched
  except when k = 3.
-/
import proofs.«180972_j34677565948161_1_alg».proof.Proof.FrameB.R1

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      · rw [PhiS_castSucc V c t, PhiS_zero V c _ _ hz, PhiA1_eq]
        iintro ⟨⟨⟨Ha, Hb, Hd, He, Hf, Hh, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha Hb Hd He Hf Hh HS0 Hg]
        · isplitl [Ha Hb Hd He Hf Hh HS0]
          · isplitl [Ha]; · iexact Ha
            isplitl [Hb]; · iexact Hb
            isplitl [Hd]; · iexact Hd
            isplitl [He]; · iexact He
            isplitl [Hf]; · iexact Hf
            isplitl [Hh]; · iexact Hh
            unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨Ha, Hb, Hd, He, Hf, Hh, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Ha Hb Hd He Hf Hh HS0 Hg]
        · isplitl [Ha Hb Hd He Hf Hh HS0]
          · isplitl [Ha]; · iexact Ha
            isplitl [Hb]; · iexact Hb
            isplitl [Hd]; · iexact Hd
            isplitl [He]; · iexact He
            isplitl [Hf]; · iexact Hf
            isplitl [Hh]; · iexact Hh
            unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      by_cases hz : t.val = 0
      · exfalso; omega
      · rw [PhiS_castSucc V c t, PhiS_pos V c _ _ hz]
        iintro ⟨⟨⟨Ha, Hb, Hd, He, Hf, Hh, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [Ha Hb Hd He Hf Hh HS0 Hg]
        · isplitl [Ha Hb Hd He Hf Hh HS0]
          · isplitl [Ha]; · iexact Ha
            isplitl [Hb]; · iexact Hb
            isplitl [Hd]; · iexact Hd
            isplitl [He]; · iexact He
            isplitl [Hf]; · iexact Hf
            isplitl [Hh]; · iexact Hh
            unfold owns; iexists _; isplitr
            swap; · iexact HS0
            ipureintro; exact View.read_writes_of_cover _ _ _ _ _ (scover1_C c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      by_cases hz : t.val = 0
      · exfalso; omega
      · rw [PhiS_castSucc V c t, PhiS_pos V c _ _ hz]
        iintro ⟨⟨⟨Ha, Hb, Hd, He, Hf, Hh, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha Hb Hd He Hf Hh HS0 Hg]
        · isplitl [Ha Hb Hd He Hf Hh HS0]
          · isplitl [Ha]; · iexact Ha
            isplitl [Hb]; · iexact Hb
            isplitl [Hd]; · iexact Hd
            isplitl [He]; · iexact He
            isplitl [Hf]; · iexact Hf
            isplitl [Hh]; · iexact Hh
            unfold owns; iexists _; isplitr
            swap; · iexact HS0
            ipureintro; exact View.read_writes_of_cover _ _ _ _ _ (scover1_B c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ha, Hb, Hd, He, Hf, Hh, HS0⟩, Hg⟩
  isplitl [Ha Hb Hd He Hf Hh HS0]
  · isplitl [Ha]; · iexact Ha
    isplitl [Hb]; · iexact Hb
    isplitl [Hd]; · iexact Hd
    isplitl [He]; · iexact He
    isplitl [Hf]; · iexact Hf
    isplitl [Hh]; · iexact Hh
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Frm

end
-- ==== Proof.FrameB.Run.lean ====
/-
  The run of @main: region 0 (dequantise), two reshapes, region 1 (matmul + bias), one reshape.
  The unscoped buffers' contents at each boundary are a fold from the launch memory: a region leaves its arrays at
  what its write-backs fold to and every other buffer as entered; a host stretch applies its operations. The last
  thread state is read against the final memory, so every unscoped buffer ends at the last boundary's contents —
  the arguments as launched, and the result buffer at the reshape of what region 1 leaves.
-/
import proofs.«180972_j34677565948161_1_alg».proof.Proof.FrameB.R0
import proofs.«180972_j34677565948161_1_alg».proof.Proof.FrameB.R1Body

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch (region 0's entry). -/
abbrev W0 : Dev nD → Valuation τ sig (Elt F) := fun c b => m (c, b)
/-- The same read at the TensorCore's references. -/
abbrev V0r : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (V0r m) c).arrAt w cfg0.N
theorem W1_arr (c : Dev nD) (w : Fin cfg0.W) :
    W1 m c (Proc.devRef .tc (Pipeline.arrRef spec0 w)) = (dat0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1r : (c : Dev nD) → (b : Ref sig .tc) → Buf (Elt F) ((c : Thread nD τ).loc b) := fun c b => W1 m c b
theorem hF0 (c : Dev nD) (w : Fin cfg0.W) : (dat0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)

/-- After the two reshapes (region 1's entry). -/
abbrev W2 : Dev nD → Valuation τ sig (Elt F) := fun c => StableHlo.after hostOps1 (W1 m c)
abbrev V2r : (c : Dev nD) → (b : Ref sig .tc) → Buf (Elt F) ((c : Thread nD τ).loc b) := fun c b => W2 m c b
/-- At region 1's exit. -/
def W3 (c : Dev nD) : Valuation τ sig (Elt F) :=
  Pipeline.withArrays spec1 c (W2 m c) fun w => (dat1 (V2r m) c).arrAt w cfg1.N
theorem W3_arr (c : Dev nD) (w : Fin cfg1.W) :
    W3 m c (Proc.devRef .tc (Pipeline.arrRef spec1 w)) = (dat1 (V2r m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3r : (c : Dev nD) → (b : Ref sig .tc) → Buf (Elt F) ((c : Thread nD τ).loc b) := fun c b => W3 m c b
theorem hF1 (c : Dev nD) (w : Fin cfg1.W) : (dat1 (V2r m) c).arrAt w cfg1.N = V3r m c (Pipeline.arrRef spec1 w) :=
  (W3_arr m c w).symm
theorem hrest1 (c : Dev nD) : ∀ b, b ∉ Finset.univ.image (Pipeline.arrRef spec1) → V3r m c b = V2r m c b :=
  fun b hb => W3_of_ne m c b fun w e => hb (Finset.mem_image.mpr ⟨w, Finset.mem_univ _, e⟩)
/-- After the last reshape (the return). -/
abbrev W4 : Dev nD → Valuation τ sig (Elt F) := fun c => StableHlo.after hostOps2 (W3 m c)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.Forall, StableHlo.reshape_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.Forall, StableHlo.reshape_writes, Finset.mem_singleton]
          repeat' apply And.intro
          all_goals exact StableHlo.devRef_ne_of_ne (by decide)))
    _ = W0 m c (Proc.devRef .tc main_arg0) := W1_of_ne m c main_arg0 (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.Forall, StableHlo.reshape_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.Forall, StableHlo.reshape_writes, Finset.mem_singleton]
          repeat' apply And.intro
          all_goals exact StableHlo.devRef_ne_of_ne (by decide)))
    _ = W0 m c (Proc.devRef .tc main_arg1) := (W1_arr m c 0).trans (((dat0 (V0r m) c).arrAt_in 0 rfl _).trans (A_eq0 (V0r m) c 0))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.Forall, StableHlo.reshape_writes, Finset.mem_singleton]
          repeat' apply And.intro
          all_goals exact StableHlo.devRef_ne_of_ne (by decide)))
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.Forall, StableHlo.reshape_writes, Finset.mem_singleton]
          repeat' apply And.intro
          all_goals exact StableHlo.devRef_ne_of_ne (by decide)))
    _ = W0 m c (Proc.devRef .tc main_arg2) := W1_of_ne m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_forall_not_mem (b := Proc.devRef .tc main_arg3) _ _ (List.forall_iff_forall_mem.mp (by
          simp only [hostOps2, List.Forall, StableHlo.reshape_writes, Finset.mem_singleton]
          repeat' apply And.intro
          all_goals exact StableHlo.devRef_ne_of_ne (by decide)))
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [hostOps1, List.Forall, StableHlo.reshape_writes, Finset.mem_singleton]
          repeat' apply And.intro
          all_goals exact StableHlo.devRef_ne_of_ne (by decide)))
    _ = W0 m c (Proc.devRef .tc main_arg3) := (W1_arr m c 1).trans (((dat0 (V0r m) c).arrAt_in 1 rfl _).trans (A_eq0 (V0r m) c 1))
    _ = m ((c : Thread nD τ).loc main_arg3) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0r m) c
  | ⟨1, _⟩ => fun c => dat1 (V2r m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment: entered with every unscoped buffer at `W0`, left with them at `W1`. Its arrays are
    split out of the unscoped buffers and put back at what the write-backs leave; the generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W2`, left with them at `W3`. Its arrays are
    split out of the unscoped buffers and put back at what the write-backs leave; the generator register goes into the
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2r m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V2r m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2r m c) (V3r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    in every final state each unscoped buffer holds the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (W4 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.Kernel.Frm

end
-- ==== Proof.FrameI.R0.lean ====
/-
  Region 0 (the group dequantisation of the weight matrix) at the contents `V` its core holds on entry.
  Grid (j, gi): the body loads the [1024 out-channels, 1024 in-features] tile of the weight and the [8 groups, 1024
  out-channels] tile of the steps, and stores the transposed, quantised [1024 in-features, 1024 out-channels] tile.
  Every window is fetched / written back at every point, the body keeps nothing between points, and its one store covers
  the output block: what the block holds after the body is the store's payload of the two input blocks.
-/
import proofs.«180972_j34677565948161_1_alg».proof.Proof.Gen.KernelIdeal.Launch
import proofs.«180972_j34677565948161_1_alg».proof.Proof.Gen.KernelIdeal.Skeleton
import proofs.«180972_j34677565948161_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight tile is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The steps' tile is in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole [1024, 1024] tile (the weight tile loaded, the output tile stored). -/
abbrev r0_0 : Rect S1024x1024 := Rect.unit (s := S1024x1024) ![0, 0] S1024x1024.size inb_S1024x1024_S1024x1024_0_0
/-- The whole [8, 1024] tile of steps. -/
abbrev r0_1 : Rect S8x1024 := Rect.unit (s := S8x1024) ![0, 0] S8x1024.size inb_S8x1024_S8x1024_0_0

/-! ## What the body leaves in the output block -/

/-- The output tile after the body: its one store's payload of the two loaded tiles. -/
def out0_2 (x0 : Vec F S1024x1024 .f32) (x1 : Vec F S8x1024 .f32) : Vec F S1024x1024 .bf16 :=
  View.canon [⟨r0_0, k0_pay1 (View.ld x0 r0_0) (View.ld x1 r0_1)⟩]

/-- The store covers the tile. -/
theorem cover0_2 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg2 : Memref sig .tc .vmem S1024x1024 .f32) (harg2 : arg2.IsWhole)
    (arg3 : Memref sig .tc .vmem S8x1024 .f32) (harg3 : arg3.IsWhole) (arg4 : Memref sig .tc .vmem S1024x1024 .bf16) (harg4 : arg4.IsWhole)
    (x0 : Vec F S1024x1024 .f32) (x1 : Vec F S8x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__dequant_kernel i arg2 harg2 arg3 harg3 arg4 harg4) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- Pipeline 0's proof data on core `c`: the arrays as found; after the body each input's buffer at its block and the
    output's at `out0_2` of the two input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.FrameI.R1Shared.lean ====
/-
  Region 1 (the K-blocked matmul with its accumulator scratch): what its three control cases share.
  The grid is (i, j, k) with k innermost, so point t has k = t % 4: the accumulator is zeroed when k = 0 and the
  output block is stored when k = 3.
-/
import proofs.«180972_j34677565948161_1_alg».proof.Proof.Gen.KernelIdeal.Launch
import proofs.«180972_j34677565948161_1_alg».proof.Proof.Gen.KernelIdeal.Skeleton
import proofs.«180972_j34677565948161_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions, in closed form over the grid -/

/-- "k = 0": the accumulator is zeroed. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from k = 3 the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S1024x1024 .f32 := (Memref.whole cc1_stg3_0 : Memref sig .tc .vmem S1024x1024 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator scratch, a whole scoped buffer of the kernel's own. -/
abbrev scM1 : Memref sig .tc .vmem S1024x1024 .f32 := Memref.whole cc1_scratch0
abbrev VS1 : View sig .tc .vmem S1024x1024 .f32 := scM1.view

/-- A scoped buffer held whole at some contents. -/
abbrev anyAt (c : Dev nD) (b : Ref sig .tc) : sProp 𝕄 :=
  iprop(∃ f : Buf (Elt F) ((c : Thread nD τ).loc b), ((c : Thread nD τ).loc b) ↦{fullShare} f)

/-- The class invariant with the accumulator split off: region 0's six staging buffers at anything, the accumulator
    at anything, the generator register at some state. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ anyAt c cc0_stg2_0 ∗ anyAt c cc0_stg2_1 ∗ (∃ d, owns (c : Thread nD τ) scM1 fullShare d)) ∗ (∃ r, prngReg c r)) := by
  unfold Pipeline.ΦA; rw [scopedRest1_eq]; simp only [scM1, owns_whole]; try rfl

end Cert.KernelIdeal.Frm

end
-- ==== Proof.FrameI.R1Runs.lean ====
/-
  Region 1's body, run once per control case. Each run is a subtype: the pieces the stores leave in the accumulator
  (and, when k = 3, in the output block), last first, with the proof that the body — on whole staging memrefs holding
  the three input blocks, the accumulator at what the point before left (at anything when k = 0, where it is zeroed
  first), the output block handed back untouched where nothing is stored into it — runs to a continuation holding
  exactly that. The piece lists are found by the run itself.
-/
import proofs.«180972_j34677565948161_1_alg».proof.Proof.FrameI.R1Shared

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case A, k = 0: the accumulator is zeroed, then the product of the two blocks is added; nothing is stored into the output block. -/
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case B, k = 1 or 2: the product of the two blocks is added to the accumulator; nothing is stored into the output block. -/
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case C, k = 3: the last product is added to the accumulator, and the accumulator plus the bias row is stored into the output block. -/
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Frm

end
-- ==== Proof.FrameI.R1.lean ====
/-
  Region 1 (the K-blocked matmul) at the contents `V` its core holds on entry: what the accumulator scratch and the
  output block hold after each grid point, the proof data, and the body obligation.
  Point t = (i, j, k) with k = t % 4 innermost. The accumulator after point t is the case's pieces read back: zero plus
  the first product when k = 0, what point t − 1 left plus the product otherwise; the output block is stored (and
  written back) only when k = 3, and is idle elsewhere.
-/
import proofs.«180972_j34677565948161_1_alg».proof.Proof.FrameI.R1Runs

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, fetched there or not (the bias row is fetched only
    when j moves: in between its index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

section Cases
variable (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)

/-- Case A stores nothing into the output block: a placeholder nothing consults (the window is idle and not written back). -/
def out1_A_3 (hc0 : cond1_0 i) (hc1 : ¬cond1_1 i) (x0 : Vec F S1024x1024 .f32) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)
/-- Case A's pieces cover the accumulator. -/
theorem scover1_A (hc0 : cond1_0 i) (hc1 : ¬cond1_1 i) (x0 : Vec F S1024x1024 .f32) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y
/-- What case A leaves in the accumulator. -/
def sout1_A (hc0 : cond1_0 i) (hc1 : ¬cond1_1 i) (x0 : Vec F S1024x1024 .f32) (x1 : Vec F S1024x1024 .bf16) (x2 : Vec F S1x1024 .f32) : Vec F S1024x1024 .f32 :=
  VS1.read (Elt F) (VS1.writes (Elt F) VS1.junk (kernelRun1_A c i arg3 harg3 arg4 harg4 arg5 harg5 arg6 harg6 arg7 harg7 hc0 hc1 x0 x1 x2).2.1)

/-- Case B stores nothing into the output block either. -/
def out1_B_3 (hc0 : ¬cond1_0 i) (hc1 : ¬cond1_1 i) (x0 : Vec F S1024x1024 .f32) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B (hc0 : ¬cond1_0 i) (hc1 : ¬cond1_1 i) (x0 : Vec F S1024x1024 .f32) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y
/-- What case B leaves in the accumulator, over what the point before left (`xs0`). -/
def sout1_B (hc0 : ¬cond1_0 i) (hc1 : ¬cond1_1 i) (x0 : Vec F S1024x1024 .f32) (x1 : Vec F S1024x1024 .bf16) (x2 : Vec F S1x1024 .f32) (xs0 : Vec F S1024x1024 .f32) : Vec F S1024x1024 .f32 :=
  VS1.read (Elt F) (VS1.writes (Elt F) VS1.junk (kernelRun1_B c i arg3 harg3 arg4 harg4 arg5 harg5 arg6 harg6 arg7 harg7 hc0 hc1 x0 x1 x2 xs0).2.1)

/-- Case C's store covers the output block. -/
theorem cover1_C_3 (hc0 : ¬cond1_0 i) (hc1 : cond1_1 i) (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y
/-- What case C leaves in the output block. -/
def out1_C_3 (hc0 : ¬cond1_0 i) (hc1 : cond1_1 i) (x0 : Vec F S1024x1024 .f32) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C (hc0 : ¬cond1_0 i) (hc1 : cond1_1 i) (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y
/-- What case C leaves in the accumulator. -/
def sout1_C (hc0 : ¬cond1_0 i) (hc1 : cond1_1 i) (x0 : Vec F S1024x1024 .f32) (x1 : Vec F S1024x1024 .bf16) (x2 : Vec F S1x1024 .f32) (xs0 : Vec F S1024x1024 .f32) : Vec F S1024x1024 .f32 :=
  VS1.read (Elt F) (VS1.writes (Elt F) VS1.junk (kernelRun1_C c i arg3 harg3 arg4 harg4 arg5 harg5 arg6 harg6 arg7 harg7 hc0 hc1 x0 x1 x2 xs0).2.1)

end Cases

/-! ## What the output block and the accumulator hold after each point -/

/-- After the body at position `n`: (the output block, the accumulator) — the case the closed forms select, run at the
    point's memrefs and input blocks, over the accumulator position `n - 1` left. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the start the class invariant (the accumulator at anything); afterwards the same scoped
    rest with the accumulator at what position `n - 1` left. -/
def PhiS (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg1_1 ∗ anyAt c cc0_stg2_0 ∗ anyAt c cc0_stg2_1 ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyAt c cc0_stg0_0 ∗ anyAt c cc0_stg0_1 ∗ anyAt c cc0_stg1_0 ∗ anyAt c cc0_stg1_1 ∗ anyAt c cc0_stg2_0 ∗ anyAt c cc0_stg2_1 ∗ owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(iprop(anyAt c cc0_stg0_0 ∗ anyAt c cc0_stg0_1 ∗ anyAt c cc0_stg1_0 ∗ anyAt c cc0_stg1_1 ∗ anyAt c cc0_stg2_0 ∗ anyAt c cc0_stg2_1 ∗ owns (c : Thread nD τ) scM1 fullShare ((outsAt1 V c (n - 1) (by omega)).2)) ∗ (∃ r, prngReg c r)) := by
  cases n with
  | zero => exact absurd rfl hz
  | succ n => rfl

/-! ## The proof data -/

/-- Pipeline 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Frm

end
-- ==== Proof.FrameI.R1Body.lean ====
/-
  Region 1's body obligation: at every grid point the closed forms of the two conditions say which case the point is
  in; that case's run applies with the accumulator handed over at what the point before left (at anything at the first
  point, where it is zeroed) and taken back at this point's contents; the output block is handed back untouched
  except when k = 3.
-/
import proofs.«180972_j34677565948161_1_alg».proof.Proof.FrameI.R1

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      · rw [PhiS_castSucc V c t, PhiS_zero V c _ _ hz, PhiA1_eq]
        iintro ⟨⟨⟨Ha, Hb, Hd, He, Hf, Hh, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha Hb Hd He Hf Hh HS0 Hg]
        · isplitl [Ha Hb Hd He Hf Hh HS0]
          · isplitl [Ha]; · iexact Ha
            isplitl [Hb]; · iexact Hb
            isplitl [Hd]; · iexact Hd
            isplitl [He]; · iexact He
            isplitl [Hf]; · iexact Hf
            isplitl [Hh]; · iexact Hh
            unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨Ha, Hb, Hd, He, Hf, Hh, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Ha Hb Hd He Hf Hh HS0 Hg]
        · isplitl [Ha Hb Hd He Hf Hh HS0]
          · isplitl [Ha]; · iexact Ha
            isplitl [Hb]; · iexact Hb
            isplitl [Hd]; · iexact Hd
            isplitl [He]; · iexact He
            isplitl [Hf]; · iexact Hf
            isplitl [Hh]; · iexact Hh
            unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      by_cases hz : t.val = 0
      · exfalso; omega
      · rw [PhiS_castSucc V c t, PhiS_pos V c _ _ hz]
        iintro ⟨⟨⟨Ha, Hb, Hd, He, Hf, Hh, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [Ha Hb Hd He Hf Hh HS0 Hg]
        · isplitl [Ha Hb Hd He Hf Hh HS0]
          · isplitl [Ha]; · iexact Ha
            isplitl [Hb]; · iexact Hb
            isplitl [Hd]; · iexact Hd
            isplitl [He]; · iexact He
            isplitl [Hf]; · iexact Hf
            isplitl [Hh]; · iexact Hh
            unfold owns; iexists _; isplitr
            swap; · iexact HS0
            ipureintro; exact View.read_writes_of_cover _ _ _ _ _ (scover1_C c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      by_cases hz : t.val = 0
      · exfalso; omega
      · rw [PhiS_castSucc V c t, PhiS_pos V c _ _ hz]
        iintro ⟨⟨⟨Ha, Hb, Hd, He, Hf, Hh, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha Hb Hd He Hf Hh HS0 Hg]
        · isplitl [Ha Hb Hd He Hf Hh HS0]
          · isplitl [Ha]; · iexact Ha
            isplitl [Hb]; · iexact Hb
            isplitl [Hd]; · iexact Hd
            isplitl [He]; · iexact He
            isplitl [Hf]; · iexact Hf
            isplitl [Hh]; · iexact Hh
            unfold owns; iexists _; isplitr
            swap; · iexact HS0
            ipureintro; exact View.read_writes_of_cover _ _ _ _ _ (scover1_B c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ha, Hb, Hd, He, Hf, Hh, HS0⟩, Hg⟩
  isplitl [Ha Hb Hd He Hf Hh HS0]
  · isplitl [Ha]; · iexact Ha
    isplitl [Hb]; · iexact Hb
    isplitl [Hd]; · iexact Hd
    isplitl [He]; · iexact He
    isplitl [Hf]; · iexact Hf
    isplitl [Hh]; · iexact Hh
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Frm

end
-- ==== Proof.FrameI.Run.lean ====
/-
  The run of @main: region 0 (dequantise), two reshapes, region 1 (matmul + bias), one reshape.
  The unscoped buffers' contents at each boundary are a fold from the launch memory: a region leaves its arrays at
  what its write-backs fold to and every other buffer as entered; a host stretch applies its operations. The last
  thread state is read against the final memory, so every unscoped buffer ends at the last boundary's contents —
  the arguments as launched, and the result buffer at the reshape of what region 1 leaves.
-/
import proofs.«180972_j34677565948161_1_alg».proof.Proof.FrameI.R0
import proofs.«180972_j34677565948161_1_alg».proof.Proof.FrameI.R1Body

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch (region 0's entry). -/
abbrev W0 : Dev nD → Valuation τ sig (Elt F) := fun c b => m (c, b)
/-- The same read at the TensorCore's references. -/
abbrev V0r : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (V0r m) c).arrAt w cfg0.N
theorem W1_arr (c : Dev nD) (w : Fin cfg0.W) :
    W1 m c (Proc.devRef .tc (Pipeline.arrRef spec0 w)) = (dat0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1r : (c : Dev nD) → (b : Ref sig .tc) → Buf (Elt F) ((c : Thread nD τ).loc b) := fun c b => W1 m c b
theorem hF0 (c : Dev nD) (w : Fin cfg0.W) : (dat0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)

/-- After the two reshapes (region 1's entry). -/
abbrev W2 : Dev nD → Valuation τ sig (Elt F) := fun c => StableHlo.after hostOps1 (W1 m c)
abbrev V2r : (c : Dev nD) → (b : Ref sig .tc) → Buf (Elt F) ((c : Thread nD τ).loc b) := fun c b => W2 m c b
/-- At region 1's exit. -/
def W3 (c : Dev nD) : Valuation τ sig (Elt F) :=
  Pipeline.withArrays spec1 c (W2 m c) fun w => (dat1 (V2r m) c).arrAt w cfg1.N
theorem W3_arr (c : Dev nD) (w : Fin cfg1.W) :
    W3 m c (Proc.devRef .tc (Pipeline.arrRef spec1 w)) = (dat1 (V2r m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3r : (c : Dev nD) → (b : Ref sig .tc) → Buf (Elt F) ((c : Thread nD τ).loc b) := fun c b => W3 m c b
theorem hF1 (c : Dev nD) (w : Fin cfg1.W) : (dat1 (V2r m) c).arrAt w cfg1.N = V3r m c (Pipeline.arrRef spec1 w) :=
  (W3_arr m c w).symm
theorem hrest1 (c : Dev nD) : ∀ b, b ∉ Finset.univ.image (Pipeline.arrRef spec1) → V3r m c b = V2r m c b :=
  fun b hb => W3_of_ne m c b fun w e => hb (Finset.mem_image.mpr ⟨w, Finset.mem_univ _, e⟩)
/-- After the last reshape (the return). -/
abbrev W4 : Dev nD → Valuation τ sig (Elt F) := fun c => StableHlo.after hostOps2 (W3 m c)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.Forall, StableHlo.reshape_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.Forall, StableHlo.reshape_writes, Finset.mem_singleton]
          repeat' apply And.intro
          all_goals exact StableHlo.devRef_ne_of_ne (by decide)))
    _ = W0 m c (Proc.devRef .tc main_arg0) := W1_of_ne m c main_arg0 (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.Forall, StableHlo.reshape_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.Forall, StableHlo.reshape_writes, Finset.mem_singleton]
          repeat' apply And.intro
          all_goals exact StableHlo.devRef_ne_of_ne (by decide)))
    _ = W0 m c (Proc.devRef .tc main_arg1) := (W1_arr m c 0).trans (((dat0 (V0r m) c).arrAt_in 0 rfl _).trans (A_eq0 (V0r m) c 0))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.Forall, StableHlo.reshape_writes, Finset.mem_singleton]
          repeat' apply And.intro
          all_goals exact StableHlo.devRef_ne_of_ne (by decide)))
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.Forall, StableHlo.reshape_writes, Finset.mem_singleton]
          repeat' apply And.intro
          all_goals exact StableHlo.devRef_ne_of_ne (by decide)))
    _ = W0 m c (Proc.devRef .tc main_arg2) := W1_of_ne m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_forall_not_mem (b := Proc.devRef .tc main_arg3) _ _ (List.forall_iff_forall_mem.mp (by
          simp only [hostOps2, List.Forall, StableHlo.reshape_writes, Finset.mem_singleton]
          repeat' apply And.intro
          all_goals exact StableHlo.devRef_ne_of_ne (by decide)))
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [hostOps1, List.Forall, StableHlo.reshape_writes, Finset.mem_singleton]
          repeat' apply And.intro
          all_goals exact StableHlo.devRef_ne_of_ne (by decide)))
    _ = W0 m c (Proc.devRef .tc main_arg3) := (W1_arr m c 1).trans (((dat0 (V0r m) c).arrAt_in 1 rfl _).trans (A_eq0 (V0r m) c 1))
    _ = m ((c : Thread nD τ).loc main_arg3) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0r m) c
  | ⟨1, _⟩ => fun c => dat1 (V2r m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment: entered with every unscoped buffer at `W0`, left with them at `W1`. Its arrays are
    split out of the unscoped buffers and put back at what the write-backs leave; the generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W2`, left with them at `W3`. Its arrays are
    split out of the unscoped buffers and put back at what the write-backs leave; the generator register goes into the
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2r m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V2r m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2r m c) (V3r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    in every final state each unscoped buffer holds the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (W4 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.KernelIdeal.Frm

end
-- ==== Proof.Spec.lean ====
/-
  The specification: what both programs compute, as functions of the four argument arrays over the extended reals.

  For an out-channel n and an in-feature k (in group k / 128) the quantisation step is σ = step_scales[k / 128, n] + ε,
  the dequantised weight is  wdq[k, n] = round_half_even(weight[n, k] / σ) · σ,  and the result is
  out[b, s, n] = (Σ_k x[b, s, k] · wdq[k, n]) + bias[n].  No finiteness is needed anywhere: the two sides differ only
  in the grouping of the sum over k, and the extended reals are a commutative monoid under +.
-/
import Idealize.ShloMosaic.PureOps.Ideal
import Idealize.ShloMosaic.Lib.ValueIdx

noncomputable section

open scoped BigOperators

namespace Cert.Spec

open Idealize.ShloMosaic Idealize.ShloMosaic.ValueIdx

/-- x : f32[4, 2048, 4096]. -/
abbrev SX : Shape := ⟨3, ![4, 2048, 4096]⟩
/-- weight : f32[4096, 4096], laid out [out-channel n, in-feature k]; also the shape of the dequantised [k, n] matrix. -/
abbrev SW : Shape := ⟨2, ![4096, 4096]⟩
/-- bias : f32[4096]. -/
abbrev SB : Shape := ⟨1, ![4096]⟩
/-- step_scales : f32[32, 4096], [group, out-channel]. -/
abbrev SS : Shape := ⟨2, ![32, 4096]⟩
/-- x flattened to [8192, 4096] (row 2048·b + s), and the flat result. -/
abbrev SM : Shape := ⟨2, ![8192, 4096]⟩
/-- bias as a row, f32[1, 4096]. -/
abbrev SB2 : Shape := ⟨2, ![1, 4096]⟩

/-- The shared literal ε (the f32 nearest 1e-8), as the extended real both programs read it as. -/
def eps : EReal := Ideal.ofBits .f32 0x322BCC77#32

/-- Round w to the step σ: round_half_even(w / σ) · σ. -/
def quant (w σ : EReal) : EReal := Ideal.liftRound Ideal.roundHalfEven (Ideal.div w σ) * σ

/-- The group of in-feature k. -/
def grp (k : Fin 4096) : Fin 32 := ⟨k.val / 128, by have := k.isLt; omega⟩

/-- The dequantised weight matrix, [k, n]. -/
def wdq (w : Vec Ideal SW .f32) (s : Vec Ideal SS .f32) : Vec Ideal SW .f32 := fun j =>
  quant (w (ix2 (j 1) (j 0))) (s (ix2 (grp (j 0)) (j 1)) + eps)

/-- The flat product plus bias, [8192, 4096]: row r, column n. -/
def outFlat (xf : Vec Ideal SM .f32) (wd : Vec Ideal SW .f32) (b : Vec Ideal SB2 .f32) : Vec Ideal SM .f32 := fun j =>
  (∑ k : Fin 4096, xf (ix2 (j 0) k) * wd (ix2 k (j 1))) + b (ix2 (0 : Fin 1) (j 1))

/-- The result, [4, 2048, 4096]. -/
def out (x : Vec Ideal SX .f32) (w : Vec Ideal SW .f32) (b : Vec Ideal SB .f32) (s : Vec Ideal SS .f32) : Vec Ideal SX .f32 := fun j =>
  (∑ k : Fin 4096, x (ix3 (j 0) (j 1) k) * wdq w s (ix2 k (j 2))) + b (ix1 (j 2))

/-- A sum over 4096 in-features is the sum over the four blocks of 1024 of the block sums (any commutative monoid). -/
theorem sum_blocks {M : Type} [AddCommMonoid M] (f : Fin 4096 → M) :
    ∑ k : Fin 4096, f k = ∑ b : Fin 4, ∑ j : Fin 1024, f ⟨1024 * b.val + j.val, by have := b.isLt; have := j.isLt; omega⟩ := by
  rw [← Finset.sum_product']
  refine (Finset.sum_bij' (fun (p : Fin 4 × Fin 1024) _ => (⟨1024 * p.1.val + p.2.val, by have := p.1.isLt; have := p.2.isLt; omega⟩ : Fin 4096))
    (fun (k : Fin 4096) _ => ((⟨k.val / 1024, by have := k.isLt; omega⟩ : Fin 4), (⟨k.val % 1024, Nat.mod_lt _ (by decide)⟩ : Fin 1024)))
    (fun _ _ => Finset.mem_univ _) (fun _ _ => Finset.mem_univ _) ?_ ?_ (fun _ _ => rfl)).symm
  · rintro ⟨b, j⟩ _
    have hb := b.isLt; have hj := j.isLt
    apply Prod.ext
    · apply Fin.ext; show (1024 * b.val + j.val) / 1024 = b.val; omega
    · apply Fin.ext; show (1024 * b.val + j.val) % 1024 = j.val; omega
  · intro k _
    apply Fin.ext; show 1024 * (k.val / 1024) + k.val % 1024 = k.val; omega

end Cert.Spec

end
-- ==== Proof.Pay.lean ====
/-
  The kernels' payloads read at an index, over the extended reals.
-/
import proofs.«180972_j34677565948161_1_alg».proof.Proof.Gen.KernelIdeal.Skeleton
import proofs.«180972_j34677565948161_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen

namespace Cert.KernelIdeal.Pay

/-! ## The layout operations of the dequantisation tile, read at coordinates

A [1024, 1024] tile and its [8, 128, 1024] view have the same row-major order, so row p = 128·g + r of the tile is row r
of group g of the view; the [8, 1024] steps get a unit middle axis, which the broadcast then repeats over the 128 rows of
a group. -/

section Layout
variable {α : Type}

/-- Row r of group g of the [8, 128, 1024] view is row p = 128·g + r of the [1024, 1024] tile. -/
private theorem groups_of_flat (v : S1024x1024.Idx → α) (h : S1024x1024.ShapeCasts S8x128x1024) (p q : Fin 1024)
    (g : Fin 8) (r : Fin 128) (hp : p.val = 128 * g.val + r.val) :
    shapeCast S8x128x1024 v h (ix3 g r q) = v (ix2 p q) :=
  shapeCast_apply v h (ix3 g r q) (ix2 p q) (by
    rw [Shape.rowMajor_val_two, Shape.rowMajor_val_three]
    show p.val * 1024 + q.val = (g.val * 128 + r.val) * 1024 + q.val
    omega)

/-- Row p = 128·g + r of the [1024, 1024] tile is row r of group g of the [8, 128, 1024] array it is cast from. -/
private theorem flat_of_groups (v : S8x128x1024.Idx → α) (h : S8x128x1024.ShapeCasts S1024x1024) (p q : Fin 1024)
    (g : Fin 8) (r : Fin 128) (hp : p.val = 128 * g.val + r.val) :
    shapeCast S1024x1024 v h (ix2 p q) = v (ix3 g r q) :=
  shapeCast_apply v h (ix2 p q) (ix3 g r q) (by
    rw [Shape.rowMajor_val_two, Shape.rowMajor_val_three]
    show (g.val * 128 + r.val) * 1024 + q.val = p.val * 1024 + q.val
    omega)

/-- The [8, 1024] steps with a unit middle axis: entry (g, u, q) is entry (g, q). -/
private theorem unit_mid_of_pair (v : S8x1024.Idx → α) (h : S8x1024.ShapeCasts S8x1x1024) (g : Fin 8) (u : Fin 1) (q : Fin 1024) :
    shapeCast S8x1x1024 v h (ix3 g u q) = v (ix2 g q) :=
  shapeCast_apply v h (ix3 g u q) (ix2 g q) (by
    have hu : u.val = 0 := by omega
    rw [Shape.rowMajor_val_two, Shape.rowMajor_val_three]
    show g.val * 1024 + q.val = (g.val * 1 + u.val) * 1024 + q.val
    omega)

/-- The unit middle axis repeated over the 128 rows of a group: entry (g, r, q) is entry (g, 0, q). -/
private theorem rows_of_unit_mid (v : S8x1x1024.Idx → α) (h : S8x1x1024.Broadcasts S8x128x1024) (g : Fin 8) (r : Fin 128) (q : Fin 1024) :
    broadcastTo S8x128x1024 v h (ix3 g r q) = v (ix3 g (0 : Fin 1) q) := by
  refine broadcastTo_apply v h (ix3 g r q) (ix3 g (0 : Fin 1) q) fun ax => ?_
  match ax with
  | ⟨0, _⟩ => show g.val = if (8 : Nat) = 1 then 0 else g.val; rw [if_neg (by decide)]
  | ⟨1, _⟩ => show (0 : Nat) = if (1 : Nat) = 1 then 0 else r.val; rw [if_pos rfl]
  | ⟨2, _⟩ => show q.val = if (1024 : Nat) = 1 then 0 else q.val; rw [if_neg (by decide)]

end Layout

/-- The dequantisation payload: entry (p, q) of the [in-feature, out-channel] tile is the transposed weight entry
    rounded to the step of in-feature p's group (p / 128 within the tile's eight groups) and out-channel q. -/
theorem pay0_apply (x : Vec Ideal S1024x1024 .f32) (s : Vec Ideal S8x1024 .f32) (p q : Fin 1024) :
    k0_pay1 (F := Ideal) x s (ix2 p q)
      = Cert.Spec.quant (x (ix2 q p)) (s (ix2 (⟨p.val / 128, by have := p.isLt; omega⟩ : Fin 8) q) + Cert.Spec.eps) := by
  have hg : p.val / 128 < 8 := by have := p.isLt; omega
  have hr : p.val % 128 < 128 := Nat.mod_lt _ (by decide)
  have hp : p.val = 128 * (p.val / 128) + p.val % 128 := by omega
  -- the transposed weight, read by (group, row in the group, out-channel)
  have ew : shapeCast S8x128x1024 (transpose S1024x1024 [1, 0] x Cert.KernelIdeal.Gen.transposes_S1024x1024_p1_0_S1024x1024)
      Cert.KernelIdeal.Gen.shapeCasts_S1024x1024_S8x128x1024 (ix3 (⟨p.val / 128, hg⟩ : Fin 8) (⟨p.val % 128, hr⟩ : Fin 128) q)
        = x (ix2 q p) :=
    (groups_of_flat _ _ p q (⟨p.val / 128, hg⟩ : Fin 8) (⟨p.val % 128, hr⟩ : Fin 128) hp).trans
      (transpose_ix2_apply x Cert.KernelIdeal.Gen.transposes_S1024x1024_p1_0_S1024x1024 p q)
  -- the step of the group and the out-channel, the same on every row of the group
  have es : broadcastTo S8x128x1024
      (shapeCast S8x1x1024 (addf (F := Ideal) (φ := .f32) s (broadcast S8x1024 (Scalar.ofBits (F := Ideal) .f32 0x322BCC77#32)))
        Cert.KernelIdeal.Gen.shapeCasts_S8x1024_S8x1x1024)
      Cert.KernelIdeal.Gen.broadcasts_S8x1x1024_S8x128x1024 (ix3 (⟨p.val / 128, hg⟩ : Fin 8) (⟨p.val % 128, hr⟩ : Fin 128) q)
        = s (ix2 (⟨p.val / 128, hg⟩ : Fin 8) q) + Cert.Spec.eps :=
    (rows_of_unit_mid _ _ (⟨p.val / 128, hg⟩ : Fin 8) (⟨p.val % 128, hr⟩ : Fin 128) q).trans
      (unit_mid_of_pair _ _ (⟨p.val / 128, hg⟩ : Fin 8) (0 : Fin 1) q)
  -- the tile's entry is the rounded quotient times the step, at that (group, row, out-channel)
  refine (truncf_apply (ψ := .bf16) _ Cert.KernelIdeal.Gen.bitsLt_bf16_f32 (ix2 p q)).trans ?_
  refine (flat_of_groups _ Cert.KernelIdeal.Gen.shapeCasts_S8x128x1024_S1024x1024 p q
    (⟨p.val / 128, hg⟩ : Fin 8) (⟨p.val % 128, hr⟩ : Fin 128) hp).trans ?_
  show Ideal.liftRound Ideal.roundHalfEven (Ideal.div _ _) * _ = _
  rw [ew, es]
  rfl

/-- The accumulator's reset value is zero. -/
theorem pay1_apply (j : S1024x1024.Idx) : k1_pay1 (F := Ideal) j = 0 :=
  (congrFun (shapeCast_self (broadcast S1024x1024 (Scalar.ofBits (F := Ideal) .f32 0x00000000#32))
    Cert.KernelIdeal.Gen.shapeCasts_S1024x1024_S1024x1024) j).trans Ideal.ofBits_zero_f32

/-! ## The block product

The product of a [1024, 1024] block by a [1024, 1024] block contracts the left block's axis 1 with the right block's
axis 0: at (p, q) it reads the left block at (p, k) and the right at (k, q), k the one coordinate of the contraction index. -/

private theorem lhs_mm_0 (i : S1024x1024.Idx) (c : dot_S1024x1024_S1024x1024_S1024x1024_1_0_0_1_n_n.contr.Idx) :
    (dot_S1024x1024_S1024x1024_S1024x1024_1_0_0_1_n_n.lhsIdx i c 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
private theorem lhs_mm_1 (i : S1024x1024.Idx) (c : dot_S1024x1024_S1024x1024_S1024x1024_1_0_0_1_n_n.contr.Idx) :
    (dot_S1024x1024_S1024x1024_S1024x1024_1_0_0_1_n_n.lhsIdx i c 1).val = (c ⟨0, by decide⟩).val :=
  dot_S1024x1024_S1024x1024_S1024x1024_1_0_0_1_n_n.lhsIdx_val_of_single rfl i c
private theorem rhs_mm_0 (i : S1024x1024.Idx) (c : dot_S1024x1024_S1024x1024_S1024x1024_1_0_0_1_n_n.contr.Idx) :
    (dot_S1024x1024_S1024x1024_S1024x1024_1_0_0_1_n_n.rhsIdx i c 0).val = (c ⟨0, by decide⟩).val :=
  dot_S1024x1024_S1024x1024_S1024x1024_1_0_0_1_n_n.rhsIdx_val_of_single rfl i c
private theorem rhs_mm_1 (i : S1024x1024.Idx) (c : dot_S1024x1024_S1024x1024_S1024x1024_1_0_0_1_n_n.contr.Idx) :
    (dot_S1024x1024_S1024x1024_S1024x1024_1_0_0_1_n_n.rhsIdx i c 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product into a zero accumulator, at (p, q): the sum over k of left (p, k) times right (k, q). -/
private theorem mm_zero_apply (l r : FVec Ideal S1024x1024 .bf16) (p q : Fin 1024) :
    FloatOps.matmul dot_S1024x1024_S1024x1024_S1024x1024_1_0_0_1_n_n none l r (constant (F := Ideal) S1024x1024 .f32 0x00000000#32) (ix2 p q)
      = ∑ k : Fin 1024, l (ix2 p k) * r (ix2 k q) := by
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_mm_0 _ _).trans hk
    | ⟨1, _⟩ => exact rhs_mm_1 _ _)
  rw [el, er]

/-- One accumulation step: the accumulator plus the product of the two blocks. -/
theorem pay2_apply (x : Vec Ideal S1024x1024 .f32) (w : Vec Ideal S1024x1024 .bf16) (a : Vec Ideal S1024x1024 .f32) (p q : Fin 1024) :
    k1_pay2 (F := Ideal) x w a (ix2 p q) = a (ix2 p q) + ∑ k : Fin 1024, x (ix2 p k) * w (ix2 k q) := by
  unfold k1_pay2
  simp only [shapeCast_self]
  show a (ix2 p q) + FloatOps.matmul dot_S1024x1024_S1024x1024_S1024x1024_1_0_0_1_n_n none (φ₁ := .bf16) (φ₂ := .bf16) x w
    (constant (F := Ideal) S1024x1024 .f32 0x00000000#32) (ix2 p q) = _
  exact congrArg (a (ix2 p q) + ·) (mm_zero_apply x w p q)

/-- The epilogue: the accumulator plus the bias row. -/
theorem pay3_apply (a : Vec Ideal S1024x1024 .f32) (b : Vec Ideal S1x1024 .f32) (p q : Fin 1024) :
    k1_pay3 (F := Ideal) a b (ix2 p q) = a (ix2 p q) + b (ix2 (0 : Fin 1) q) := by
  have eb : broadcastTo S1024x1024 (shapeCast S1x1024 b Cert.KernelIdeal.Gen.shapeCasts_S1x1024_S1x1024)
      Cert.KernelIdeal.Gen.broadcasts_S1x1024_S1024x1024 (ix2 p q) = b (ix2 (0 : Fin 1) q) :=
    (broadcastTo_1b_ab_apply _ _ p q).trans (congrFun (shapeCast_self b _) _)
  show a (ix2 p q) + _ = _
  rw [eb]

end Cert.KernelIdeal.Pay

end
-- ==== Proof.Val0.lean ====
/-
  Region 0's value: the array its write-backs leave is the dequantised weight matrix.

  The grid point t = 4·j + gi handles out-channel tile j = t / 4 and in-feature tile gi = t % 4. Its output block is rows
  1024·gi … (in-features) and columns 1024·j … (out-channels) of the [in-feature, out-channel] matrix; its weight block is
  rows 1024·j …, columns 1024·gi … of the [out-channel, in-feature] weight; its steps' block is rows 8·gi … (groups) and
  columns 1024·j … of the [group, out-channel] steps. Entry (p, q) of the output block is the weight block's entry (q, p)
  rounded to the step at (p / 128, q) of the steps' block, and in-feature 1024·gi + p is in group 8·gi + p / 128: so the
  block written back is that block of the dequantised matrix, and the sixteen blocks tile it.
-/
import proofs.«180972_j34677565948161_1_alg».proof.Proof.FrameI.R0
import proofs.«180972_j34677565948161_1_alg».proof.Proof.Pay
import proofs.«180972_j34677565948161_1_alg».proof.Proof.Spec
import Idealize.ShloMosaic.Lib.ValueIdx
import Idealize.ShloMosaic.Lib.Pipeline.Value

set_option maxRecDepth 16384

noncomputable section

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen

namespace Cert.KernelIdeal.Val

open Cert.KernelIdeal.Frm

/-! ## Tiles -/

theorem hz : (![0, 0] : Fin 2 → Nat) = fun _ => 0 :=
  funext fun a => match a with | ⟨0, _⟩ => rfl | ⟨1, _⟩ => rfl

/-- Element r of tile b of an axis of 4096 cut into four tiles of 1024. -/
abbrev inTile (b : Fin 4) (r : Fin 1024) : Fin 4096 :=
  ⟨1024 * b.val + r.val, by have := b.isLt; have := r.isLt; omega⟩

/-- Group g of the eight groups of in-feature tile b. -/
abbrev grpIn (b : Fin 4) (g : Fin 8) : Fin 32 :=
  ⟨8 * b.val + g.val, by have := b.isLt; have := g.isLt; omega⟩

/-- The group, within its tile's eight, of the tile's in-feature p. -/
abbrev grpOf (p : Fin 1024) : Fin 8 := ⟨p.val / 128, by have := p.isLt; omega⟩

/-- The out-channel tile of a grid point. -/
abbrev tileN (t : Fin cfg0.N) : Fin 4 :=
  ⟨t.val / 4, by have := t.isLt; have hN : cfg0.N = 16 := N_0; omega⟩

/-- The in-feature tile of a grid point. -/
abbrev tileK (t : Fin cfg0.N) : Fin 4 := ⟨t.val % 4, Nat.mod_lt _ (by decide)⟩

/-- The three windows' block indices at a point: the weight's is (t / 4, t % 4), the steps' and the output's (t % 4, t / 4). -/
theorem idx_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = t.val / 4
    ∧ win0_2.index t (0 : Fin 2) = t.val % 4 ∧ win0_2.index t (1 : Fin 2) = t.val / 4 :=
  (by decide +kernel : ∀ t : Fin grid0.N, _)

/-! ## The blocks, read off their arrays -/

/-- The weight block at a point: entry (q, p) is the weight at out-channel 1024·(t / 4) + q, in-feature 1024·(t % 4) + p. -/
theorem read_weight (w : Vec Ideal Cert.Spec.SW .f32) (t : Fin cfg0.N) (q p : Fin 1024) :
    (((cfg0.win 0).blk t).view.read (Elt Ideal) w : Vec Ideal S1024x1024 .f32) (ix2 q p)
      = w (ix2 (inTile (tileN t) q) (inTile (tileK t) p)) := by
  obtain ⟨e0, e1, -⟩ := idx_facts t
  show w (((cfg0.win 0).blk t).view.emb (ix2 q p : S1024x1024.Idx)) = _
  refine congrArg w (funext fun a => Fin.ext ?_)
  match a with
  | ⟨0, _⟩ => show win0_0.index t (0 : Fin 2) * 1024 + 1 * q.val = 1024 * (t.val / 4) + q.val; omega
  | ⟨1, _⟩ => show win0_0.index t (1 : Fin 2) * 1024 + 1 * p.val = 1024 * (t.val % 4) + p.val; omega

/-- The steps' block at a point: entry (g, q) is the step of group 8·(t % 4) + g at out-channel 1024·(t / 4) + q. -/
theorem read_steps (s : Vec Ideal Cert.Spec.SS .f32) (t : Fin cfg0.N) (g : Fin 8) (q : Fin 1024) :
    (((cfg0.win 1).blk t).view.read (Elt Ideal) s : Vec Ideal S8x1024 .f32) (ix2 g q)
      = s (ix2 (grpIn (tileK t) g) (inTile (tileN t) q)) := by
  obtain ⟨-, -, e2, e3, -⟩ := idx_facts t
  show s (((cfg0.win 1).blk t).view.emb (ix2 g q : S8x1024.Idx)) = _
  refine congrArg s (funext fun a => Fin.ext ?_)
  match a with
  | ⟨0, _⟩ => show win0_1.index t (0 : Fin 2) * 8 + 1 * g.val = 8 * (t.val % 4) + g.val; omega
  | ⟨1, _⟩ => show win0_1.index t (1 : Fin 2) * 1024 + 1 * q.val = 1024 * (t.val / 4) + q.val; omega

/-- Entry (p, q) of the output block at a point sits at in-feature 1024·(t % 4) + p, out-channel 1024·(t / 4) + q. -/
theorem emb_out (t : Fin cfg0.N) (p q : Fin 1024) :
    ((cfg0.win 2).blk t).view.emb (ix2 p q : S1024x1024.Idx) = (ix2 (inTile (tileK t) p) (inTile (tileN t) q) : S4096x4096.Idx) := by
  obtain ⟨-, -, -, -, e4, e5⟩ := idx_facts t
  refine funext fun a => Fin.ext ?_
  match a with
  | ⟨0, _⟩ => show win0_2.index t (0 : Fin 2) * 1024 + 1 * p.val = 1024 * (t.val % 4) + p.val; omega
  | ⟨1, _⟩ => show win0_2.index t (1 : Fin 2) * 1024 + 1 * q.val = 1024 * (t.val / 4) + q.val; omega

/-! ## The dequantised matrix on a tile -/

/-- In-feature p of tile b is in group 8·b + p / 128: the dequantised matrix at that row rounds the transposed weight
    entry to that group's step. -/
theorem wdq_tile (w : Vec Ideal Cert.Spec.SW .f32) (s : Vec Ideal Cert.Spec.SS .f32) (b : Fin 4) (p : Fin 1024) (n : Fin 4096) :
    Cert.Spec.wdq w s (ix2 (inTile b p) n)
      = Cert.Spec.quant (w (ix2 n (inTile b p))) (s (ix2 (grpIn b (grpOf p)) n) + Cert.Spec.eps) := by
  have hg : Cert.Spec.grp (inTile b p) = grpIn b (grpOf p) :=
    Fin.ext (by show (1024 * b.val + p.val) / 128 = 8 * b.val + p.val / 128; omega)
  show Cert.Spec.quant (w (ix2 n (inTile b p))) (s (ix2 (Cert.Spec.grp (inTile b p)) n) + Cert.Spec.eps) = _
  rw [hg]

/-- The payload of a point's weight and steps' blocks, cut to what the write-back moves, is the point's block of the
    dequantised matrix. -/
theorem tile_eq (w : Vec Ideal Cert.Spec.SW .f32) (s : Vec Ideal Cert.Spec.SS .f32) (t : Fin cfg0.N)
    (x : Vec Ideal S1024x1024 .f32) (u : Vec Ideal S8x1024 .f32)
    (hx : x = ((cfg0.win 0).blk t).view.read (Elt Ideal) w) (hu : u = ((cfg0.win 1).blk t).view.read (Elt Ideal) s) :
    (cfg0.win 2).cut (grid0.coords t) (k0_pay1 (F := Ideal) x u)
      = ((cfg0.win 2).blk t).view.read (Elt Ideal) (Cert.Spec.wdq w s) := by
  have ex : ∀ q p : Fin 1024, x (ix2 q p) = w (ix2 (inTile (tileN t) q) (inTile (tileK t) p)) :=
    fun q p => (congrFun hx (ix2 q p)).trans (read_weight w t q p)
  have eu : ∀ (g : Fin 8) (q : Fin 1024), u (ix2 g q) = s (ix2 (grpIn (tileK t) g) (inTile (tileN t) q)) :=
    fun g q => (congrFun hu (ix2 g q)).trans (read_steps s t g q)
  show (fun y : S1024x1024.Idx => k0_pay1 (F := Ideal) x u y)
    = fun y : S1024x1024.Idx => Cert.Spec.wdq w s (((cfg0.win 2).blk t).view.emb y)
  funext y
  obtain ⟨p, q, rfl⟩ : ∃ (p q : Fin 1024), y = ix2 p q := ⟨y 0, y 1, eq_ix2 y⟩
  refine (Cert.KernelIdeal.Pay.pay0_apply x u p q).trans ?_
  refine Eq.trans ?_ (congrArg (Cert.Spec.wdq w s) (emb_out t p q)).symm
  rw [wdq_tile, ex, eu]

/-! ## From the blocks to the array -/

variable (V : (c : Dev nD) → (b : Ref sig .tc) → Buf (Elt Ideal) ((c : Thread nD τ).loc b))

/-- What a point writes back is its block of the dequantised matrix of the weight and steps the region found. -/
theorem flushed_eq (c : Dev nD) (t : Fin cfg0.N) :
    (dat0 (F := Ideal) V c).flushed 2 t
      = ((cfg0.win 2).blk t).view.read (Elt Ideal) (Cert.Spec.wdq (V c main_arg1) (V c main_arg3)) := by
  show (cfg0.win 2).cut (grid0.coords t) ((dat0 (F := Ideal) V c).after 2 t) = _
  rw [after0_2]
  unfold out0_2
  rw [View.canon_unit_zero hz]
  simp only [View.ld_unit_zero (S := S1024x1024) hz, View.ld_unit_zero (S := S8x1024) hz]
  exact tile_eq (V c main_arg1) (V c main_arg3) t (iblk0 V c 0 t) (iblk0 V c 1 t) rfl rfl

/-- An index of the matrix is in a point's output block iff each coordinate is in the block's range on its axis. -/
theorem mem_blk (t : Fin cfg0.N) (i : S4096x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Entry (k, n) of the matrix is in the block of the point 4·(n / 1024) + k / 1024. -/
theorem cover (i : S4096x4096.Idx) :
    ∃ t : Fin cfg0.N, (cfg0.win 2).flush t = true ∧ i ∈ ((cfg0.win 2).blk t).view.set := by
  have h0 : (i 0).val < 4096 := (i 0).isLt
  have h1 : (i 1).val < 4096 := (i 1).isLt
  have hN : cfg0.N = 16 := N_0
  obtain ⟨t, ht⟩ : ∃ t : Fin cfg0.N, t.val = 4 * ((i 1).val / 1024) + (i 0).val / 1024 := ⟨⟨_, by omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- After region 0 the output array holds `wdq` of the weight and step arrays the region found. -/
theorem final0 (c : Dev nD) :
    (dat0 (F := Ideal) V c).arrAt 2 cfg0.N = Cert.Spec.wdq (V c main_arg1) (V c main_arg3) :=
  (dat0 (F := Ideal) V c).arrAt_eq_of_cover 2 (Cert.Spec.wdq (V c main_arg1) (V c main_arg3))
    (fun t _ => flushed_eq V c t) cover

end Cert.KernelIdeal.Val

end
-- ==== Proof.Val1Pieces.lean ====
/-
  Region 1's body, case by case, as pure functions of what it loads. When k = 0 the accumulator is zeroed and the
  product of the two blocks is added to that zero; when k = 1, 2 or 3 the product is added to what the point before
  left; when k = 3 the output block is, besides, the accumulator just stored plus the bias row.
-/
import proofs.«180972_j34677565948161_1_alg».proof.Proof.FrameI.R1
import Idealize.ShloMosaic.Lib.Pipeline.Value
import Idealize.ShloMosaic.Lib.Pipeline.FrameBody
import Idealize.ShloMosaic.Lib.Tactic

set_option maxRecDepth 16384

noncomputable section

namespace Cert.KernelIdeal.Val

open Idealize.ShloMosaic Idealize.ShloMosaic.TcCoe Idealize.SL.Sem
open Cert.KernelIdeal Cert.KernelIdeal.Gen Cert.KernelIdeal.Frm

variable {F : FTy → Type} [FloatOps F]

/-- The offsets of a whole-tile rectangle are zero. -/
theorem hz1 : (![0, 0] : Fin 2 → Nat) = fun _ => 0 := funext fun a => by fin_cases a <;> rfl

section Pieces
variable (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
  (x0 : Vec F S1024x1024 .f32) (x1 : Vec F S1024x1024 .bf16) (x2 : Vec F S1x1024 .f32) (xs0 : Vec F S1024x1024 .f32)

/-- k = 0: the accumulator is left at the zero block plus the product of the two blocks. -/
theorem sout1_A_eq (hc0 : cond1_0 i) (hc1 : ¬cond1_1 i) :
    sout1_A c i arg3 harg3 arg4 harg4 arg5 harg5 arg6 harg6 arg7 harg7 hc0 hc1 x0 x1 x2 = k1_pay2 x0 x1 (k1_pay1 (F := F)) := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_words
  rw [View.canon_cons_unit_zero (S := S1024x1024) hz1, View.readCov_unit_zero (S := S1024x1024) _ hz1]
  simp only [View.readAt_eq_ld, harg3.read_unread, harg4.read_unread, View.ld_unit_zero (S := S1024x1024) hz1]

/-- k = 1 or 2: the accumulator is left at what the point before left plus the product of the two blocks. -/
theorem sout1_B_eq (hc0 : ¬cond1_0 i) (hc1 : ¬cond1_1 i) :
    sout1_B c i arg3 harg3 arg4 harg4 arg5 harg5 arg6 harg6 arg7 harg7 hc0 hc1 x0 x1 x2 xs0 = k1_pay2 x0 x1 xs0 := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  sl_unfold_words
  rw [View.canon_unit_zero (S := S1024x1024) hz1]
  simp only [View.readAt_eq_ld, harg3.read_unread, harg4.read_unread, harg7.read_unread, View.ld_unit_zero (S := S1024x1024) hz1]

/-- k = 3: the accumulator is left at what the point before left plus the product of the two blocks. -/
theorem sout1_C_eq (hc0 : ¬cond1_0 i) (hc1 : cond1_1 i) :
    sout1_C c i arg3 harg3 arg4 harg4 arg5 harg5 arg6 harg6 arg7 harg7 hc0 hc1 x0 x1 x2 xs0 = k1_pay2 x0 x1 xs0 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  sl_unfold_words
  rw [View.canon_unit_zero (S := S1024x1024) hz1]
  simp only [View.readAt_eq_ld, harg3.read_unread, harg4.read_unread, harg7.read_unread, View.ld_unit_zero (S := S1024x1024) hz1]

/-- k = 3: the output block is the accumulator just stored plus the bias row. -/
theorem out1_C_3_eq (hc0 : ¬cond1_0 i) (hc1 : cond1_1 i) :
    out1_C_3 c i arg3 harg3 arg4 harg4 arg5 harg5 arg6 harg6 arg7 harg7 hc0 hc1 x0 x1 x2 xs0 = k1_pay3 (k1_pay2 x0 x1 xs0) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero (S := S1024x1024) hz1]
  simp only [View.readAt_eq_ld, harg3.read_unread, harg4.read_unread, harg5.read_unread, harg7.read_unread,
    View.readCov_unit_zero (S := S1024x1024) _ hz1, View.ld_unit_zero (S := S1024x1024) hz1, View.ld_unit_zero (S := S1x1024) hz1]

end Pieces

end Cert.KernelIdeal.Val

end
-- ==== Proof.Val1Blocks.lean ====
/-
  Region 1's windows' blocks, read at an index.

  The grid point t = 16·i + 4·j + k has row tile i = t / 16, out-channel tile j = (t / 4) % 4 and in-feature tile
  k = t % 4. The x block is rows 1024·i …, columns 1024·k … of the flat [8192, 4096] x; the dequantised-weight block is
  rows 1024·k … (in-features), columns 1024·j … (out-channels) of the [4096, 4096] matrix; the bias block is columns
  1024·j … of the one bias row; the output block is rows 1024·i …, columns 1024·j … of the flat [8192, 4096] result. An
  entry of a block sits in its array at block index × block size + the coordinate inside the block, axis by axis.
-/
import proofs.«180972_j34677565948161_1_alg».proof.Proof.FrameI.R1
import Idealize.ShloMosaic.Lib.ValueIdx
import Idealize.ShloMosaic.Lib.Pipeline.Value

set_option maxRecDepth 16384

noncomputable section

open Idealize.ShloMosaic Idealize.ShloMosaic.TcCoe Idealize.ShloMosaic.ValueIdx Idealize.SL.Sem
open Cert.KernelIdeal Cert.KernelIdeal.Gen Cert.KernelIdeal.Frm

namespace Cert.KernelIdeal.Val

variable {F : FTy → Type} [FloatOps F]
variable (V : (c : Dev nD) → (b : Ref sig .tc) → Buf (Elt F) ((c : Thread nD τ).loc b))

/-- The four windows' block indices at a point: x's is (t / 16, t % 4), the dequantised weight's (t % 4, (t / 4) % 4),
    the bias row's (0, (t / 4) % 4), the output's (t / 16, (t / 4) % 4). -/
theorem idx1 : ∀ t : Fin cfg1.N,
    win1_0.index t (0 : Fin 2) = t.val / 16 ∧ win1_0.index t (1 : Fin 2) = t.val % 4
    ∧ win1_1.index t (0 : Fin 2) = t.val % 4 ∧ win1_1.index t (1 : Fin 2) = (t.val / 4) % 4
    ∧ win1_2.index t (0 : Fin 2) = 0 ∧ win1_2.index t (1 : Fin 2) = (t.val / 4) % 4
    ∧ win1_3.index t (0 : Fin 2) = t.val / 16 ∧ win1_3.index t (1 : Fin 2) = (t.val / 4) % 4 :=
  (by decide +kernel : ∀ t : Fin grid1.N, _)

/-- The x block at a point: entry (p, l) is x at row 1024·(t / 16) + p, in-feature 1024·(t % 4) + l. -/
theorem iblk1_0_at (c : Dev nD) (t : Fin cfg1.N) (p l : Fin 1024) :
    (iblk1 V c 0 t : Vec F S1024x1024 .f32) (ix2 p l)
      = (V c main_v1 : Vec F S8192x4096 .f32) (ix2
          (⟨1024 * (t.val / 16) + p.val, by have := t.isLt; have hN : cfg1.N = 128 := N_1; have := p.isLt; omega⟩ : Fin 8192)
          (⟨1024 * (t.val % 4) + l.val, by have := l.isLt; omega⟩ : Fin 4096)) := by
  obtain ⟨e0, e1, -⟩ := idx1 t
  show (V c main_v1 : Vec F S8192x4096 .f32) (((cfg1.win 0).blk t).view.emb (ix2 p l : S1024x1024.Idx)) = _
  refine congrArg (V c main_v1 : Vec F S8192x4096 .f32) (funext fun a => Fin.ext ?_)
  match a with
  | ⟨0, _⟩ => show win1_0.index t (0 : Fin 2) * 1024 + 1 * p.val = 1024 * (t.val / 16) + p.val; omega
  | ⟨1, _⟩ => show win1_0.index t (1 : Fin 2) * 1024 + 1 * l.val = 1024 * (t.val % 4) + l.val; omega

/-- The dequantised-weight block at a point: entry (l, q) is the matrix at in-feature 1024·(t % 4) + l, out-channel
    1024·((t / 4) % 4) + q. -/
theorem iblk1_1_at (c : Dev nD) (t : Fin cfg1.N) (l q : Fin 1024) :
    (iblk1 V c 1 t : Vec F S1024x1024 .bf16) (ix2 l q)
      = (V c main_v0 : Vec F S4096x4096 .bf16) (ix2
          (⟨1024 * (t.val % 4) + l.val, by have := l.isLt; omega⟩ : Fin 4096)
          (⟨1024 * ((t.val / 4) % 4) + q.val, by have := q.isLt; omega⟩ : Fin 4096)) := by
  obtain ⟨-, -, e2, e3, -⟩ := idx1 t
  show (V c main_v0 : Vec F S4096x4096 .bf16) (((cfg1.win 1).blk t).view.emb (ix2 l q : S1024x1024.Idx)) = _
  refine congrArg (V c main_v0 : Vec F S4096x4096 .bf16) (funext fun a => Fin.ext ?_)
  match a with
  | ⟨0, _⟩ => show win1_1.index t (0 : Fin 2) * 1024 + 1 * l.val = 1024 * (t.val % 4) + l.val; omega
  | ⟨1, _⟩ => show win1_1.index t (1 : Fin 2) * 1024 + 1 * q.val = 1024 * ((t.val / 4) % 4) + q.val; omega

/-- The bias block at a point: entry (0, q) is the bias row at out-channel 1024·((t / 4) % 4) + q. -/
theorem iblk1_2_at (c : Dev nD) (t : Fin cfg1.N) (q : Fin 1024) :
    (iblk1 V c 2 t : Vec F S1x1024 .f32) (ix2 (0 : Fin 1) q)
      = (V c main_v2 : Vec F S1x4096 .f32) (ix2 (0 : Fin 1)
          (⟨1024 * ((t.val / 4) % 4) + q.val, by have := q.isLt; omega⟩ : Fin 4096)) := by
  obtain ⟨-, -, -, -, e4, e5, -⟩ := idx1 t
  show (V c main_v2 : Vec F S1x4096 .f32) (((cfg1.win 2).blk t).view.emb (ix2 (0 : Fin 1) q : S1x1024.Idx)) = _
  refine congrArg (V c main_v2 : Vec F S1x4096 .f32) (funext fun a => Fin.ext ?_)
  match a with
  | ⟨0, _⟩ => show win1_2.index t (0 : Fin 2) * 1 + 1 * 0 = 0; omega
  | ⟨1, _⟩ => show win1_2.index t (1 : Fin 2) * 1024 + 1 * q.val = 1024 * ((t.val / 4) % 4) + q.val; omega

/-- The output block at a point, cut out of an array G: entry (p, q) is G at row 1024·(t / 16) + p, out-channel
    1024·((t / 4) % 4) + q. -/
theorem oblk1_3_at (G : Vec F S8192x4096 .f32) (t : Fin cfg1.N) (p q : Fin 1024) :
    (((cfg1.win 3).blk t).view.read (Elt F) G : Vec F S1024x1024 .f32) (ix2 p q)
      = G (ix2
          (⟨1024 * (t.val / 16) + p.val, by have := t.isLt; have hN : cfg1.N = 128 := N_1; have := p.isLt; omega⟩ : Fin 8192)
          (⟨1024 * ((t.val / 4) % 4) + q.val, by have := q.isLt; omega⟩ : Fin 4096)) := by
  obtain ⟨-, -, -, -, -, -, e6, e7⟩ := idx1 t
  show G (((cfg1.win 3).blk t).view.emb (ix2 p q : S1024x1024.Idx)) = _
  refine congrArg G (funext fun a => Fin.ext ?_)
  match a with
  | ⟨0, _⟩ => show win1_3.index t (0 : Fin 2) * 1024 + 1 * p.val = 1024 * (t.val / 16) + p.val; omega
  | ⟨1, _⟩ => show win1_3.index t (1 : Fin 2) * 1024 + 1 * q.val = 1024 * ((t.val / 4) % 4) + q.val; omega

end Cert.KernelIdeal.Val

end
-- ==== Proof.Val1Cover.lean ====
/-
  Region 1's output blocks tile the flat result.

  The output window's block at the grid point t = 16·i + 4·j + k is rows 1024·i …, columns 1024·j … of the flat
  [8192, 4096] result, and it is written back at the last in-feature tile only (k = 3). Entry (r, n) of the result is in
  the block of the point 16·(r / 1024) + 4·(n / 1024) + 3, which writes back: so an array that every written-back block
  agrees with is what the result holds after the region.
-/
import proofs.«180972_j34677565948161_1_alg».proof.Proof.FrameI.R1
import proofs.«180972_j34677565948161_1_alg».proof.Proof.Val1Blocks
import Idealize.ShloMosaic.Lib.ValueIdx
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frm

namespace Cert.KernelIdeal.Val

/-- An index of the flat result is in a point's output block iff each coordinate is in the block's range on its axis. -/
theorem mem_blk1 (t : Fin cfg1.N) (i : S8192x4096.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v3).slice (win1_3.rect t)).set ↔ _
  rw [View.set_slice_whole, Rect.mem_set_unit]
  exact Iff.rfl

/-- Entry (r, n) of the flat result is in the block of the point 16·(r / 1024) + 4·(n / 1024) + 3, a point that writes back. -/
theorem cover1 (i : S8192x4096.Idx) :
    ∃ t : Fin cfg1.N, (cfg1.win 3).flush t = true ∧ i ∈ ((cfg1.win 3).blk t).view.set := by
  have h0 : (i 0).val < 8192 := (i 0).isLt
  have h1 : (i 1).val < 4096 := (i 1).isLt
  have hN : cfg1.N = 128 := N_1
  obtain ⟨t, ht⟩ : ∃ t : Fin cfg1.N, t.val = 16 * ((i 0).val / 1024) + 4 * ((i 1).val / 1024) + 3 := ⟨⟨_, by omega⟩, rfl⟩
  obtain ⟨-, -, -, -, -, -, e6, e7⟩ := idx1 t
  refine ⟨t, (flush1_3 t).mpr (by omega), ?_⟩
  rw [mem_blk1]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 1024 ≤ (i 1).val ∧ (i 1).val < win1_3.index t (1 : Fin 2) * 1024 + 1024
    omega

/-- If what every writing-back point writes back is its block of one array G, the result holds G after the region. -/
theorem final1_of (V : (c : Dev nD) → (b : Ref sig .tc) → Buf (Elt Ideal) ((c : Thread nD τ).loc b)) (c : Dev nD)
    (G : Vec Ideal S8192x4096 .f32)
    (hfl : ∀ t : Fin cfg1.N, (cfg1.win 3).flush t = true →
      (dat1 (F := Ideal) V c).flushed 3 t = ((cfg1.win 3).blk t).view.read (Elt Ideal) G) :
    (dat1 (F := Ideal) V c).arrAt 3 cfg1.N = G :=
  (dat1 (F := Ideal) V c).arrAt_eq_of_cover 3 G hfl cover1

end Cert.KernelIdeal.Val

end
-- ==== Proof.Val1.lean ====
/-
  Region 1's value: the array its write-backs leave is the flat product plus the bias row.

  The grid point t = 16·i + 4·j + k has row tile i = t / 16, out-channel tile j = (t / 4) % 4 and in-feature tile
  k = t % 4, with k running fastest. Along a run of four points with the same (i, j) the accumulator is zeroed at k = 0
  and the product of the x tile (i, k) and the dequantised-weight tile (k, j) is added at every k: after the point with
  in-feature tile k its entry (p, q) is 0 + B₀ + … + B_k, where B_kk = Σ_l x[1024·i + p, 1024·kk + l] · wdq[1024·kk + l, 1024·j + q].
  At k = 3 the output tile (i, j) is stored as the accumulator plus the bias row and written back: its entry is
  B₀ + B₁ + B₂ + B₃ + bias, which is the sum over all 4096 in-features cut into its four blocks of 1024, plus the bias.
  Only + on the extended reals is re-associated (a commutative monoid); no finiteness is needed. The 32 output tiles
  tile the [8192, 4096] array.
-/
import proofs.«180972_j34677565948161_1_alg».proof.Proof.FrameI.R1
import proofs.«180972_j34677565948161_1_alg».proof.Proof.Pay
import proofs.«180972_j34677565948161_1_alg».proof.Proof.Spec
import proofs.«180972_j34677565948161_1_alg».proof.Proof.Val1Pieces
import proofs.«180972_j34677565948161_1_alg».proof.Proof.Val1Blocks
import proofs.«180972_j34677565948161_1_alg».proof.Proof.Val1Cover
import Idealize.ShloMosaic.Lib.ValueIdx
import Idealize.ShloMosaic.Lib.Pipeline.Value

set_option maxRecDepth 16384

noncomputable section

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen

namespace Cert.KernelIdeal.Val

open Cert.KernelIdeal.Frm

variable (V : (c : Dev nD) → (b : Ref sig .tc) → Buf (Elt Ideal) ((c : Thread nD τ).loc b))

/-! ## The arrays and the blocks, at their literal types -/

/-- The flat x, the dequantised weight and the bias row, as the region finds them. -/
abbrev xarr (c : Dev nD) : Vec Ideal S8192x4096 .f32 := V c main_v1
abbrev warr (c : Dev nD) : Vec Ideal S4096x4096 .bf16 := V c main_v0
abbrev barr (c : Dev nD) : Vec Ideal S1x4096 .f32 := V c main_v2

/-- Their blocks at a point. -/
abbrev xblk (c : Dev nD) (t : Fin cfg1.N) : Vec Ideal S1024x1024 .f32 := iblk1 V c 0 t
abbrev wblk (c : Dev nD) (t : Fin cfg1.N) : Vec Ideal S1024x1024 .bf16 := iblk1 V c 1 t
abbrev bblk (c : Dev nD) (t : Fin cfg1.N) : Vec Ideal S1x1024 .f32 := iblk1 V c 2 t

/-! ## Rows, columns and in-features of a point's tiles -/

/-- Row p of the row tile of point n. -/
def rowAt (n : ℕ) (p : Fin 1024) : Fin 8192 := ⟨(1024 * (n / 16) + p.val) % 8192, Nat.mod_lt _ (by decide)⟩
/-- Out-channel q of the out-channel tile of point n. -/
def colAt (n : ℕ) (q : Fin 1024) : Fin 4096 := ⟨1024 * ((n / 4) % 4) + q.val, by have := q.isLt; omega⟩
/-- In-feature l of in-feature tile k (k read modulo 4). -/
def inAt (k : ℕ) (l : Fin 1024) : Fin 4096 := ⟨1024 * (k % 4) + l.val, by have := l.isLt; omega⟩

/-- The product of row r of x and column n of the dequantised weight, over in-feature tile k. -/
def blockProd (c : Dev nD) (r : Fin 8192) (n : Fin 4096) (k : ℕ) : EReal :=
  ∑ l : Fin 1024, xarr V c (ix2 r (inAt k l)) * warr V c (ix2 (inAt k l) n)

/-- Zero plus the block products of in-feature tiles 0 … k, added in that order. -/
def accTo (c : Dev nD) (r : Fin 8192) (n : Fin 4096) : ℕ → EReal
  | 0 => 0 + blockProd V c r n 0
  | k + 1 => accTo c r n k + blockProd V c r n (k + 1)

/-- The product of a point's two blocks at (p, q) is the block product of its in-feature tile at its row and column. -/
theorem blk_prod (c : Dev nD) (t : Fin cfg1.N) (p q : Fin 1024) :
    ∑ l : Fin 1024, xblk V c t (ix2 p l) * wblk V c t (ix2 l q)
      = blockProd V c (rowAt t.val p) (colAt t.val q) (t.val % 4) := by
  have ht := t.isLt
  have hN : cfg1.N = 128 := N_1
  have hp := p.isLt
  unfold blockProd
  refine Finset.sum_congr rfl fun l _ => ?_
  have hl := l.isLt
  have r0 : (⟨1024 * (t.val / 16) + p.val, by omega⟩ : Fin 8192) = rowAt t.val p :=
    Fin.ext (by show 1024 * (t.val / 16) + p.val = (1024 * (t.val / 16) + p.val) % 8192; omega)
  have r1 : (⟨1024 * (t.val % 4) + l.val, by omega⟩ : Fin 4096) = inAt (t.val % 4) l :=
    Fin.ext (by show 1024 * (t.val % 4) + l.val = 1024 * (t.val % 4 % 4) + l.val; omega)
  have r2 : (⟨1024 * ((t.val / 4) % 4) + q.val, by have := q.isLt; omega⟩ : Fin 4096) = colAt t.val q := rfl
  have e0 : xblk V c t (ix2 p l) = xarr V c (ix2 (rowAt t.val p) (inAt (t.val % 4) l)) :=
    (iblk1_0_at (F := Ideal) V c t p l).trans (congrArg (xarr V c) (congrArg₂ ix2 r0 r1))
  have e1 : wblk V c t (ix2 l q) = warr V c (ix2 (inAt (t.val % 4) l) (colAt t.val q)) :=
    (iblk1_1_at (F := Ideal) V c t l q).trans (congrArg (warr V c) (congrArg₂ ix2 r1 r2))
  rw [e0, e1]

/-! ## The accumulator after each point -/

/-- Two names of one position hold one accumulator. -/
theorem outsAt1_same (c : Dev nD) (u n : ℕ) (hu : u < cfg1.N) (hn : n < cfg1.N) (e : u = n) :
    (outsAt1 V c u hu).2 = (outsAt1 V c n hn).2 := by subst e; rfl

/-- After the point at position n the accumulator's entry (p, q) is zero plus the block products of in-feature tiles
    0 … n % 4, at the point's row and column. By induction on the position: at n % 4 = 0 the accumulator is zeroed and
    the first product added; elsewhere the product is added to what position n - 1 left, which has the same row and
    out-channel tiles. -/
theorem acc_eq (c : Dev nD) : ∀ (n : ℕ) (hn : n < cfg1.N) (p q : Fin 1024),
    (outsAt1 V c n hn).2 (ix2 p q) = accTo V c (rowAt n p) (colAt n q) (n % 4) := by
  intro n
  induction n with
  | zero =>
    intro hn p q
    have h0 : (⟨0, hn⟩ : Fin cfg1.N).val % 4 = 0 := rfl
    have h1 : ¬(⟨0, hn⟩ : Fin cfg1.N).val % 4 = 3 := fun h => absurd (show (0 : ℕ) % 4 = 3 from h) (by decide)
    rw [outsAt1_A V c ⟨0, hn⟩ h0 h1]
    dsimp only
    refine (congrFun (sout1_A_eq (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) (xblk V c ⟨0, hn⟩) (wblk V c ⟨0, hn⟩) (bblk V c ⟨0, hn⟩) ((hcond1_0 ⟨0, hn⟩).mpr h0) (fun h => h1 ((hcond1_1 ⟨0, hn⟩).mp h))) (ix2 p q)).trans ?_
    refine (Cert.KernelIdeal.Pay.pay2_apply (xblk V c ⟨0, hn⟩) (wblk V c ⟨0, hn⟩) (k1_pay1 (F := Ideal)) p q).trans ?_
    rw [Cert.KernelIdeal.Pay.pay1_apply, blk_prod V c ⟨0, hn⟩ p q]
    rfl
  | succ n ih =>
    intro hn p q
    have hN : cfg1.N = 128 := N_1
    have hn' : n < cfg1.N := Nat.lt_of_succ_lt hn
    by_cases h0 : (n + 1) % 4 = 0
    · have h1 : ¬(n + 1) % 4 = 3 := by omega
      rw [outsAt1_A V c ⟨n + 1, hn⟩ h0 h1]
      dsimp only
      refine (congrFun (sout1_A_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (xblk V c ⟨n + 1, hn⟩) (wblk V c ⟨n + 1, hn⟩) (bblk V c ⟨n + 1, hn⟩) ((hcond1_0 ⟨n + 1, hn⟩).mpr h0) (fun h => h1 ((hcond1_1 ⟨n + 1, hn⟩).mp h))) (ix2 p q)).trans ?_
      refine (Cert.KernelIdeal.Pay.pay2_apply (xblk V c ⟨n + 1, hn⟩) (wblk V c ⟨n + 1, hn⟩) (k1_pay1 (F := Ideal)) p q).trans ?_
      rw [Cert.KernelIdeal.Pay.pay1_apply, blk_prod V c ⟨n + 1, hn⟩ p q]
      show 0 + blockProd V c (rowAt (n + 1) p) (colAt (n + 1) q) ((n + 1) % 4) = accTo V c (rowAt (n + 1) p) (colAt (n + 1) q) ((n + 1) % 4)
      rw [h0]
      rfl
    · -- the step: what position n left, plus this point's product
      have hk : (n + 1) % 4 = n % 4 + 1 := by omega
      have hrow : rowAt n p = rowAt (n + 1) p := Fin.ext (by show (1024 * (n / 16) + p.val) % 8192 = (1024 * ((n + 1) / 16) + p.val) % 8192; omega)
      have hcol : colAt n q = colAt (n + 1) q := Fin.ext (by show 1024 * ((n / 4) % 4) + q.val = 1024 * (((n + 1) / 4) % 4) + q.val; omega)
      have hprev : (outsAt1 V c ((⟨n + 1, hn⟩ : Fin cfg1.N).val - 1) (Nat.lt_of_le_of_lt (Nat.sub_le _ _) (⟨n + 1, hn⟩ : Fin cfg1.N).isLt)).2 (ix2 p q)
          = accTo V c (rowAt (n + 1) p) (colAt (n + 1) q) (n % 4) := by
        rw [outsAt1_same V c _ n _ hn' (show (⟨n + 1, hn⟩ : Fin cfg1.N).val - 1 = n from Nat.add_sub_cancel n 1), ih hn' p q, hrow, hcol]
      have hstep : ∀ a : Vec Ideal S1024x1024 .f32, a (ix2 p q) = accTo V c (rowAt (n + 1) p) (colAt (n + 1) q) (n % 4) →
          k1_pay2 (F := Ideal) (xblk V c ⟨n + 1, hn⟩) (wblk V c ⟨n + 1, hn⟩) a (ix2 p q)
            = accTo V c (rowAt (n + 1) p) (colAt (n + 1) q) ((n + 1) % 4) := by
        intro a ha
        refine (Cert.KernelIdeal.Pay.pay2_apply (xblk V c ⟨n + 1, hn⟩) (wblk V c ⟨n + 1, hn⟩) a p q).trans ?_
        rw [ha, blk_prod V c ⟨n + 1, hn⟩ p q]
        show accTo V c (rowAt (n + 1) p) (colAt (n + 1) q) (n % 4) + blockProd V c (rowAt (n + 1) p) (colAt (n + 1) q) ((n + 1) % 4) = accTo V c (rowAt (n + 1) p) (colAt (n + 1) q) ((n + 1) % 4)
        rw [hk]
        rfl
      by_cases h1 : (n + 1) % 4 = 3
      · rw [outsAt1_C V c ⟨n + 1, hn⟩ h0 h1]
        dsimp only
        refine (congrFun (sout1_C_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (xblk V c ⟨n + 1, hn⟩) (wblk V c ⟨n + 1, hn⟩) (bblk V c ⟨n + 1, hn⟩) (outsAt1 V c ((⟨n + 1, hn⟩ : Fin cfg1.N).val - 1) (Nat.lt_of_le_of_lt (Nat.sub_le _ _) (⟨n + 1, hn⟩ : Fin cfg1.N).isLt)).2 (fun h => h0 ((hcond1_0 ⟨n + 1, hn⟩).mp h)) ((hcond1_1 ⟨n + 1, hn⟩).mpr h1)) (ix2 p q)).trans ?_
        exact hstep _ hprev
      · rw [outsAt1_B V c ⟨n + 1, hn⟩ h0 h1]
        dsimp only
        refine (congrFun (sout1_B_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (xblk V c ⟨n + 1, hn⟩) (wblk V c ⟨n + 1, hn⟩) (bblk V c ⟨n + 1, hn⟩) (outsAt1 V c ((⟨n + 1, hn⟩ : Fin cfg1.N).val - 1) (Nat.lt_of_le_of_lt (Nat.sub_le _ _) (⟨n + 1, hn⟩ : Fin cfg1.N).isLt)).2 (fun h => h0 ((hcond1_0 ⟨n + 1, hn⟩).mp h)) (fun h => h1 ((hcond1_1 ⟨n + 1, hn⟩).mp h))) (ix2 p q)).trans ?_
        exact hstep _ hprev

/-! ## What a point with k = 3 writes back -/

/-- Zero plus the four block products is the sum over all 4096 in-features. -/
theorem accTo_three (c : Dev nD) (r : Fin 8192) (n : Fin 4096) :
    accTo V c r n 3 = ∑ k : Fin 4096, xarr V c (ix2 r k) * warr V c (ix2 k n) := by
  rw [Cert.Spec.sum_blocks (fun k : Fin 4096 => xarr V c (ix2 r k) * warr V c (ix2 k n)), Fin.sum_univ_four]
  show ((0 + blockProd V c r n 0) + blockProd V c r n 1 + blockProd V c r n 2) + blockProd V c r n 3 = _
  rw [zero_add]
  rfl

/-- A point with in-feature tile 3 writes back its tile of the flat product plus the bias row. -/
theorem flushed1_eq (c : Dev nD) (t : Fin cfg1.N) (hf : (cfg1.win 3).flush t = true) :
    (dat1 (F := Ideal) V c).flushed 3 t
      = ((cfg1.win 3).blk t).view.read (Elt Ideal) (Cert.Spec.outFlat (xarr V c) (warr V c) (barr V c)) := by
  have h1 : t.val % 4 = 3 := (flush1_3 t).mp hf
  have h0 : ¬t.val % 4 = 0 := by omega
  have ht := t.isLt
  have hN : cfg1.N = 128 := N_1
  have hpos : t.val - 1 < cfg1.N := Nat.lt_of_le_of_lt (Nat.sub_le _ _) t.isLt
  show (cfg1.win 3).cut (grid1.coords t) ((dat1 (F := Ideal) V c).after 3 t) = _
  rw [after1_3, outsAt1_C V c t h0 h1]
  dsimp only
  rw [out1_C_3_eq (F := Ideal) c (grid1.coords t) (ms1_0 t) (hs1_0 t) (ms1_1 t) (hs1_1 t) (ms1_2 t) (hs1_2 t) (ms1_3 t) (hs1_3 t) scM1 (Memref.isWhole_whole _) (xblk V c t) (wblk V c t) (bblk V c t) (outsAt1 V c (t.val - 1) (Nat.lt_of_le_of_lt (Nat.sub_le _ _) t.isLt)).2 (fun h => h0 ((hcond1_0 t).mp h)) ((hcond1_1 t).mpr h1)]
  show (fun y : S1024x1024.Idx => k1_pay3 (F := Ideal) (k1_pay2 (F := Ideal) (xblk V c t) (wblk V c t) (outsAt1 V c (t.val - 1) hpos).2) (bblk V c t) y)
    = fun y : S1024x1024.Idx => (((cfg1.win 3).blk t).view.read (Elt Ideal) (Cert.Spec.outFlat (xarr V c) (warr V c) (barr V c)) : Vec Ideal S1024x1024 .f32) y
  funext y
  obtain ⟨p, q, rfl⟩ : ∃ (p q : Fin 1024), y = ix2 p q := ⟨y 0, y 1, eq_ix2 y⟩
  have hp := p.isLt
  have hq := q.isLt
  refine (Cert.KernelIdeal.Pay.pay3_apply (k1_pay2 (F := Ideal) (xblk V c t) (wblk V c t) (outsAt1 V c (t.val - 1) hpos).2) (bblk V c t) p q).trans ?_
  refine Eq.trans ?_ (oblk1_3_at (F := Ideal) (Cert.Spec.outFlat (xarr V c) (warr V c) (barr V c)) t p q).symm
  -- the accumulator stored at this point: what position t - 1 left plus the last product
  have hrow : rowAt (t.val - 1) p = rowAt t.val p := Fin.ext (by show (1024 * ((t.val - 1) / 16) + p.val) % 8192 = (1024 * (t.val / 16) + p.val) % 8192; omega)
  have hcol : colAt (t.val - 1) q = colAt t.val q := Fin.ext (by show 1024 * (((t.val - 1) / 4) % 4) + q.val = 1024 * ((t.val / 4) % 4) + q.val; omega)
  have hk : (t.val - 1) % 4 = 2 := by omega
  have hacc : k1_pay2 (F := Ideal) (xblk V c t) (wblk V c t) (outsAt1 V c (t.val - 1) hpos).2 (ix2 p q) = accTo V c (rowAt t.val p) (colAt t.val q) 3 := by
    refine (Cert.KernelIdeal.Pay.pay2_apply (xblk V c t) (wblk V c t) (outsAt1 V c (t.val - 1) hpos).2 p q).trans ?_
    rw [acc_eq V c (t.val - 1) hpos p q, blk_prod V c t p q, hrow, hcol, hk, h1]
    rfl
  have hb : bblk V c t (ix2 (0 : Fin 1) q) = barr V c (ix2 (0 : Fin 1) (colAt t.val q)) := iblk1_2_at (F := Ideal) V c t q
  rw [hacc, hb, accTo_three]
  have er : (⟨1024 * (t.val / 16) + p.val, by omega⟩ : Fin 8192) = rowAt t.val p :=
    Fin.ext (by show 1024 * (t.val / 16) + p.val = (1024 * (t.val / 16) + p.val) % 8192; omega)
  have ec : (⟨1024 * ((t.val / 4) % 4) + q.val, by omega⟩ : Fin 4096) = colAt t.val q := rfl
  rw [er, ec]
  rfl

/-! ## The array -/

/-- After region 1 the output array holds the flat product of the x and dequantised-weight arrays the region found,
    plus the bias row it found. -/
theorem final1 (c : Dev nD) :
    (dat1 (F := Ideal) V c).arrAt 3 cfg1.N = Cert.Spec.outFlat (V c main_v1) (V c main_v0) (V c main_v2) :=
  final1_of V c (Cert.Spec.outFlat (xarr V c) (warr V c) (barr V c)) (fun t hf => flushed1_eq V c t hf)

end Cert.KernelIdeal.Val

end
-- ==== Proof.Result.lean ====
/-
  The kernel's result buffer at the end of the run is the specification's `out` of the four arguments.
-/
import proofs.«180972_j34677565948161_1_alg».proof.Proof.FrameI.Run
import proofs.«180972_j34677565948161_1_alg».proof.Proof.Val0
import proofs.«180972_j34677565948161_1_alg».proof.Proof.Val1
import proofs.«180972_j34677565948161_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen

namespace Cert.KernelIdeal.Val

open Cert.KernelIdeal.Frm

/-! ## The reshapes, as arithmetic on indices -/

/-- Row 2048·a + s of the flat array is (a, s): reshaping x to rows, taking the flat product plus the bias row, and
    reshaping the result back reads, at (a, s, n), the sum over k of x[a, s, k] · wd[k, n], plus b[n]. -/
theorem reshape_outFlat (x : Vec Ideal Cert.Spec.SX .f32) (wd : Vec Ideal Cert.Spec.SW .f32) (b : Vec Ideal Cert.Spec.SB .f32)
    (h1 : Cert.Spec.SX.ShapeCasts Cert.Spec.SM) (h2 : Cert.Spec.SB.ShapeCasts Cert.Spec.SB2)
    (h3 : Cert.Spec.SM.ShapeCasts Cert.Spec.SX) :
    shapeCast Cert.Spec.SX
        (Cert.Spec.outFlat (shapeCast Cert.Spec.SM x h1) wd (shapeCast Cert.Spec.SB2 b h2)) h3
      = fun j => (∑ k : Fin 4096, x (ix3 (j 0) (j 1) k) * wd (ix2 k (j 2))) + b (ix1 (j 2)) := by
  funext j
  obtain ⟨a, s, n, rfl⟩ : ∃ (a : Fin 4) (s : Fin 2048) (n : Fin 4096), j = ix3 a s n := ⟨j 0, j 1, j 2, eq_ix3 j⟩
  have ha : a.val < 4 := a.isLt
  have hs : s.val < 2048 := s.isLt
  obtain ⟨r, hr⟩ : ∃ r : Fin 8192, r.val = 2048 * a.val + s.val := ⟨⟨2048 * a.val + s.val, by omega⟩, rfl⟩
  refine (shapeCast_apply (Cert.Spec.outFlat (shapeCast Cert.Spec.SM x h1) wd (shapeCast Cert.Spec.SB2 b h2)) h3
    (ix3 a s n) (ix2 r n) ?_).trans ?_
  · rw [Shape.rowMajor_val_two, Shape.rowMajor_val_three]
    show r.val * 4096 + n.val = (a.val * 2048 + s.val) * 4096 + n.val
    omega
  · show (∑ k : Fin 4096, shapeCast Cert.Spec.SM x h1 (ix2 r k) * wd (ix2 k n))
          + shapeCast Cert.Spec.SB2 b h2 (ix2 (0 : Fin 1) n)
        = (∑ k : Fin 4096, x (ix3 a s k) * wd (ix2 k n)) + b (ix1 n)
    refine congrArg₂ (· + ·) (Finset.sum_congr rfl fun k _ => congrArg (· * wd (ix2 k n)) ?_)
      (shapeCast_a_1a_apply b h2 0 n)
    exact shapeCast_apply x h1 (ix2 r k) (ix3 a s k) (by
      rw [Shape.rowMajor_val_three, Shape.rowMajor_val_two]
      show (a.val * 2048 + s.val) * 4096 + k.val = r.val * 4096 + k.val
      omega)

/-- The same with every intermediate array named: if xf, b2 are the reshapes of x, b, wd the dequantised weights,
    r the flat product plus bias and o the reshape of r, then o is the specification's result. -/
theorem out_of_flat (x : Vec Ideal Cert.Spec.SX .f32) (w : Vec Ideal Cert.Spec.SW .f32) (b : Vec Ideal Cert.Spec.SB .f32)
    (s : Vec Ideal Cert.Spec.SS .f32)
    (h1 : Cert.Spec.SX.ShapeCasts Cert.Spec.SM) (h2 : Cert.Spec.SB.ShapeCasts Cert.Spec.SB2)
    (h3 : Cert.Spec.SM.ShapeCasts Cert.Spec.SX)
    (xf : Vec Ideal Cert.Spec.SM .f32) (wd : Vec Ideal Cert.Spec.SW .f32) (b2 : Vec Ideal Cert.Spec.SB2 .f32)
    (r : Vec Ideal Cert.Spec.SM .f32) (o : Vec Ideal Cert.Spec.SX .f32)
    (hxf : xf = shapeCast Cert.Spec.SM x h1) (hwd : wd = Cert.Spec.wdq w s) (hb2 : b2 = shapeCast Cert.Spec.SB2 b h2)
    (hr : r = Cert.Spec.outFlat xf wd b2) (ho : o = shapeCast Cert.Spec.SX r h3) :
    o = Cert.Spec.out x w b s := by
  subst hxf hwd hb2 hr ho
  exact reshape_outFlat x (Cert.Spec.wdq w s) b h1 h2 h3

/-! ## The run's last boundary -/

variable (m : (ℓ : Loc nD τ sig) → Buf (Elt Ideal) ℓ)

/-- Region 1 enters with the x rows at the reshape of the x argument as launched: the first reshape wrote them, and
    region 0 left the x argument alone. -/
theorem entry1_x (c : Dev nD) :
    (V2r (F := Ideal) m c main_v1 : S8192x4096.Idx → EReal)
      = shapeCast S8192x4096 (m ((c : Thread nD τ).loc main_arg0) : S4x2048x4096.Idx → EReal)
          shapeCasts_S4x2048x4096_S8192x4096 := by
  have a : (StableHlo.after hostOps1 (W1 (F := Ideal) m c) (Proc.devRef .tc main_v1) : S8192x4096.Idx → EReal)
      = shapeCast S8192x4096 (W1 (F := Ideal) m c (Proc.devRef .tc main_arg0) : S4x2048x4096.Idx → EReal)
          shapeCasts_S4x2048x4096_S8192x4096 := by
    after_results
    all_goals rfl
  exact a.trans (congrArg (fun v : S4x2048x4096.Idx → EReal => shapeCast S8192x4096 v shapeCasts_S4x2048x4096_S8192x4096)
    (W1_of_ne m c main_arg0 (by decide)))

/-- … with the bias row at the reshape of the bias argument as launched, likewise. -/
theorem entry1_b (c : Dev nD) :
    (V2r (F := Ideal) m c main_v2 : S1x4096.Idx → EReal)
      = shapeCast S1x4096 (m ((c : Thread nD τ).loc main_arg2) : S4096.Idx → EReal) shapeCasts_S4096_S1x4096 := by
  have a : (StableHlo.after hostOps1 (W1 (F := Ideal) m c) (Proc.devRef .tc main_v2) : S1x4096.Idx → EReal)
      = shapeCast S1x4096 (W1 (F := Ideal) m c (Proc.devRef .tc main_arg2) : S4096.Idx → EReal) shapeCasts_S4096_S1x4096 := by
    after_results
    all_goals rfl
  exact a.trans (congrArg (fun v : S4096.Idx → EReal => shapeCast S1x4096 v shapeCasts_S4096_S1x4096)
    (W1_of_ne m c main_arg2 (by decide)))

/-- … and with the weights at what region 0 left, the dequantised weights of the weight and step arguments as
    launched: neither reshape writes that buffer. -/
theorem entry1_w (c : Dev nD) :
    (V2r (F := Ideal) m c main_v0 : S4096x4096.Idx → EReal)
      = Cert.Spec.wdq (m ((c : Thread nD τ).loc main_arg1)) (m ((c : Thread nD τ).loc main_arg3)) := by
  have a : StableHlo.after hostOps1 (W1 (F := Ideal) m c) (Proc.devRef .tc main_v0)
      = W1 (F := Ideal) m c (Proc.devRef .tc main_v0) := by
    after_results
    all_goals rfl
  exact a.trans ((W1_arr m c 2).trans (final0 (V0r m) c))

/-- Region 1 leaves the flat result at the flat product, plus the bias row, of what it entered with. -/
theorem exit1 (c : Dev nD) :
    (W3 (F := Ideal) m c (Proc.devRef .tc main_v3) : S8192x4096.Idx → EReal)
      = Cert.Spec.outFlat (V2r (F := Ideal) m c main_v1) (V2r (F := Ideal) m c main_v0) (V2r (F := Ideal) m c main_v2) :=
  (W3_arr m c 3).trans (final1 (V2r m) c)

/-- The last reshape writes the result buffer from the flat result. -/
theorem last_reshape (c : Dev nD) :
    (W4 (F := Ideal) m c (Proc.devRef .tc main_v4) : S4x2048x4096.Idx → EReal)
      = shapeCast S4x2048x4096 (W3 (F := Ideal) m c (Proc.devRef .tc main_v3) : S8192x4096.Idx → EReal)
          shapeCasts_S8192x4096_S4x2048x4096 := by
  show (StableHlo.after hostOps2 (W3 (F := Ideal) m c) (Proc.devRef .tc main_v4) : S4x2048x4096.Idx → EReal) = _
  after_results
  all_goals rfl

/-- The last boundary's contents at the result buffer: the reshape of what region 1 leaves, which is the flat
    product of the reshaped x with what region 0 left, plus the reshaped bias: entry (b, s, n) is
    (Σ_k x[b, s, k] · wdq[k, n]) + bias[n]. -/
theorem result_eq (c : Dev nD) :
    W4 (F := Ideal) m c (Proc.devRef .tc main_v4)
      = Cert.Spec.out (m ((c : Thread nD τ).loc main_arg0)) (m ((c : Thread nD τ).loc main_arg1))
          (m ((c : Thread nD τ).loc main_arg2)) (m ((c : Thread nD τ).loc main_arg3)) :=
  out_of_flat (m ((c : Thread nD τ).loc main_arg0)) (m ((c : Thread nD τ).loc main_arg1))
    (m ((c : Thread nD τ).loc main_arg2)) (m ((c : Thread nD τ).loc main_arg3))
    shapeCasts_S4x2048x4096_S8192x4096 shapeCasts_S4096_S1x4096 shapeCasts_S8192x4096_S4x2048x4096
    (V2r (F := Ideal) m c main_v1) (V2r (F := Ideal) m c main_v0) (V2r (F := Ideal) m c main_v2)
    (W3 (F := Ideal) m c (Proc.devRef .tc main_v3)) (W4 (F := Ideal) m c (Proc.devRef .tc main_v4))
    (entry1_x m c) (entry1_w m c) (entry1_b m c) (exit1 m c) (last_reshape m c)

end Cert.KernelIdeal.Val

end
-- ==== Proof.RefVal.lean ====
/-
  The reference's result, read one host operation at a time, is the specification's `out` of the four arguments.

  The reference transposes the weight to [k, n], splits the in-feature k into (group k / 128, position k % 128),
  divides by the step σ[g, n] = step_scales[g, n] + ε (constant along the position), rounds to the nearest integer
  with ties to even, multiplies by σ[g, n] again and merges (group, position) back into k: entry [k, n] of that
  matrix is the specification's wdq[k, n]. The product with x contracts all 4096 in-features in one sum, and the
  bias is added along the last axis.
-/
import proofs.«180972_j34677565948161_1_alg».proof.Proof.Gen.ReferenceIdeal.Run
import proofs.«180972_j34677565948161_1_alg».proof.Proof.Gen.ReferenceIdeal.Read
import proofs.«180972_j34677565948161_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefVal

open Idealize.ShloMosaic Idealize.ShloMosaic.ValueIdx

/-! ## Extended-real congruences -/

theorem add_congr {a a' c c' : EReal} (h1 : a = a') (h2 : c = c') : a + c = a' + c' := by
  subst h1 h2; rfl

theorem mul_congr {a a' c c' : EReal} (h1 : a = a') (h2 : c = c') : a * c = a' * c' := by
  subst h1 h2; rfl

/-- Divide by the step, round half-even, multiply by the step: the specification's `quant`. -/
theorem quant_congr {a a' c d σ : EReal} (h1 : a = a') (h2 : c = σ) (h3 : d = σ) :
    Ideal.liftRound Ideal.roundHalfEven (Ideal.div a c) * d = Cert.Spec.quant a' σ := by
  subst h1 h2 h3; rfl

/-! ## Indices -/

/-- The position of in-feature k inside its group of 128. -/
def pos (k : Fin 4096) : Fin 128 := ⟨k.val % 128, Nat.mod_lt _ (by decide)⟩

/-- The one coordinate of an axis of size one. -/
abbrev z1 : Fin 1 := ⟨0, Nat.one_pos⟩

/-- Flat entry [k, n] of the merged matrix is entry [k / 128, k % 128, n] of the grouped one. -/
theorem idx10_at (k n : Fin 4096) :
    Read.idx_main_v10 (ix2 k n) = ix3 (Cert.Spec.grp k) (pos k) n := by
  have hk : k.val < 4096 := k.isLt
  have hn : n.val < 4096 := n.isLt
  exact funext fun a => Fin.ext (by
    match a with
    | ⟨0, _⟩ =>
      show (k.val * 4096 + n.val) / 524288 = k.val / 128
      omega
    | ⟨1, _⟩ =>
      show (k.val * 4096 + n.val) / 4096 % 128 = k.val % 128
      omega
    | ⟨2, _⟩ =>
      show (k.val * 4096 + n.val) % 4096 = n.val
      omega)

/-- Entry [k / 128, k % 128, n] of the grouped matrix is flat entry [k, n] of the ungrouped one. -/
theorem idx1_at (k n : Fin 4096) :
    Read.idx_main_v1 (ix3 (Cert.Spec.grp k) (pos k) n) = ix2 k n := by
  have hk : k.val < 4096 := k.isLt
  have hn : n.val < 4096 := n.isLt
  exact funext fun a => Fin.ext (by
    match a with
    | ⟨0, _⟩ =>
      show ((k.val / 128 * 128 + k.val % 128) * 4096 + n.val) / 4096 = k.val
      omega
    | ⟨1, _⟩ =>
      show ((k.val / 128 * 128 + k.val % 128) * 4096 + n.val) % 4096 = n.val
      omega)

/-- The transpose reads entry [k, n] at [n, k]. -/
theorem idx0_at (k n : Fin 4096) : Read.idx_main_v0 (ix2 k n) = ix2 n k :=
  funext fun a => Fin.ext (by match a with | ⟨0, _⟩ => rfl | ⟨1, _⟩ => rfl)

/-- The step is constant along the position inside a group (the divisor's broadcast). -/
theorem idx5_at (g : Fin 32) (r : Fin 128) (n : Fin 4096) : Read.idx_main_v5 (ix3 g r n) = ix3 g z1 n :=
  funext fun a => Fin.ext (by match a with | ⟨0, _⟩ => rfl | ⟨1, _⟩ => rfl | ⟨2, _⟩ => rfl)

/-- The step is constant along the position inside a group (the multiplier's broadcast). -/
theorem idx8_at (g : Fin 32) (r : Fin 128) (n : Fin 4096) : Read.idx_main_v8 (ix3 g r n) = ix3 g z1 n :=
  funext fun a => Fin.ext (by match a with | ⟨0, _⟩ => rfl | ⟨1, _⟩ => rfl | ⟨2, _⟩ => rfl)

/-- step_scales[:, None, :] at [g, 0, n] is step_scales[g, n]. -/
theorem idx2_at (g : Fin 32) (n : Fin 4096) : Read.idx_main_v2 (ix3 g z1 n) = ix2 g n :=
  funext fun a => Fin.ext (by match a with | ⟨0, _⟩ => rfl | ⟨1, _⟩ => rfl)

/-- The product's left operand at (p, q, k). -/
theorem lidx_at (p : Fin 4) (q : Fin 2048) (n k : Fin 4096) : Read.lidx_main_v11 (ix3 p q n) k = ix3 p q k :=
  funext fun a => Fin.ext (by match a with | ⟨0, _⟩ => rfl | ⟨1, _⟩ => rfl | ⟨2, _⟩ => rfl)

/-- The product's right operand at (k, n). -/
theorem ridx_at (p : Fin 4) (q : Fin 2048) (n k : Fin 4096) : Read.ridx_main_v11 (ix3 p q n) k = ix2 k n :=
  funext fun a => Fin.ext (by match a with | ⟨0, _⟩ => rfl | ⟨1, _⟩ => rfl)

/-- The bias broadcast along the two leading axes: entry (p, q, n) is bias[n]. -/
theorem bias_idx (p : Fin 4) (q : Fin 2048) (n : Fin 4096) :
    Read.idx_main_v12 (Read.idx_main_v13 (ix3 p q n)) = ix1 n :=
  funext fun a => Fin.ext (by match a with | ⟨0, _⟩ => rfl)

/-! ## Values -/

/-- The step: σ[g, n] = step_scales[g, n] + ε. -/
theorem v4_at (s : Vec Ideal S32x4096 .f32) (g : Fin 32) (n : Fin 4096) :
    Read.val_main_v4 (F := Ideal) s (ix3 g z1 n) = s (ix2 g n) + Cert.Spec.eps := by
  have h2 : Read.val_main_v2 (F := Ideal) s (ix3 g z1 n) = s (ix2 g n) :=
    (Read.val_main_v2_apply (F := Ideal) s (ix3 g z1 n)).trans (congrArg s (idx2_at g n))
  have h3 : Read.val_main_v3 (F := Ideal) (ix3 g z1 n) = Cert.Spec.eps :=
    Read.val_main_v3_apply (F := Ideal) (ix3 g z1 n)
  exact add_congr h2 h3

/-- The divisor at [g, r, n] is σ[g, n]. -/
theorem v5_at (s : Vec Ideal S32x4096 .f32) (g : Fin 32) (r : Fin 128) (n : Fin 4096) :
    Read.val_main_v5 (F := Ideal) s (ix3 g r n) = s (ix2 g n) + Cert.Spec.eps :=
  (Read.val_main_v5_apply (F := Ideal) s (ix3 g r n)).trans
    ((congrArg (Read.val_main_v4 (F := Ideal) s) (idx5_at g r n)).trans (v4_at s g n))

/-- The multiplier at [g, r, n] is σ[g, n]. -/
theorem v8_at (s : Vec Ideal S32x4096 .f32) (g : Fin 32) (r : Fin 128) (n : Fin 4096) :
    Read.val_main_v8 (F := Ideal) s (ix3 g r n) = s (ix2 g n) + Cert.Spec.eps :=
  (Read.val_main_v8_apply (F := Ideal) s (ix3 g r n)).trans
    ((congrArg (Read.val_main_v4 (F := Ideal) s) (idx8_at g r n)).trans (v4_at s g n))

/-- The transposed, grouped weight at [k / 128, k % 128, n] is weight[n, k]. -/
theorem v1_at (w : Vec Ideal S4096x4096 .f32) (k n : Fin 4096) :
    Read.val_main_v1 (F := Ideal) w (ix3 (Cert.Spec.grp k) (pos k) n) = w (ix2 n k) :=
  (Read.val_main_v1_apply (F := Ideal) w (ix3 (Cert.Spec.grp k) (pos k) n)).trans
    ((congrArg (Read.val_main_v0 (F := Ideal) w) (idx1_at k n)).trans
      ((Read.val_main_v0_apply (F := Ideal) w (ix2 k n)).trans (congrArg w (idx0_at k n))))

/-- The reference's dequantised matrix is the specification's: entry [k, n] is
    round_half_even(weight[n, k] / σ) · σ with σ = step_scales[k / 128, n] + ε. -/
theorem wdq_at (w : Vec Ideal S4096x4096 .f32) (s : Vec Ideal S32x4096 .f32) (k n : Fin 4096) :
    Read.val_main_v10 (F := Ideal) w s (ix2 k n) = Cert.Spec.wdq w s (ix2 k n) := by
  have h9 : Read.val_main_v9 (F := Ideal) w s (ix3 (Cert.Spec.grp k) (pos k) n) = Cert.Spec.wdq w s (ix2 k n) :=
    quant_congr (v1_at w k n) (v5_at s (Cert.Spec.grp k) (pos k) n) (v8_at s (Cert.Spec.grp k) (pos k) n)
  exact (Read.val_main_v10_apply (F := Ideal) w s (ix2 k n)).trans
    ((congrArg (Read.val_main_v9 (F := Ideal) w s) (idx10_at k n)).trans h9)

/-- The product at (p, q, n): the sum over all 4096 in-features of x[p, q, k] · wdq[k, n]. -/
theorem v11_at (x : Vec Ideal S4x2048x4096 .f32) (w : Vec Ideal S4096x4096 .f32) (s : Vec Ideal S32x4096 .f32)
    (p : Fin 4) (q : Fin 2048) (n : Fin 4096) :
    Read.val_main_v11 (F := Ideal) x w s (ix3 p q n)
      = ∑ k : Fin 4096, x (ix3 p q k) * Cert.Spec.wdq w s (ix2 k n) :=
  (Read.val_main_v11_apply x w s (ix3 p q n)).trans
    (Finset.sum_congr rfl fun k _ =>
      mul_congr (congrArg x (lidx_at p q n k))
        ((congrArg (Read.val_main_v10 (F := Ideal) w s) (ridx_at p q n k)).trans (wdq_at w s k n)))

/-- The broadcast bias at (p, q, n) is bias[n]. -/
theorem v13_at (b : Vec Ideal S4096 .f32) (p : Fin 4) (q : Fin 2048) (n : Fin 4096) :
    Read.val_main_v13 (F := Ideal) b (ix3 p q n) = b (ix1 n) :=
  (Read.val_main_v13_apply (F := Ideal) b (ix3 p q n)).trans
    ((Read.val_main_v12_apply (F := Ideal) b (Read.idx_main_v13 (ix3 p q n))).trans (congrArg b (bias_idx p q n)))

/-- The reference's result is the specification's `out`. -/
theorem ref_eq (x : Vec Ideal S4x2048x4096 .f32) (w : Vec Ideal S4096x4096 .f32) (b : Vec Ideal S4096 .f32)
    (s : Vec Ideal S32x4096 .f32) :
    Read.val_main_v14 (F := Ideal) x w b s = Cert.Spec.out x w b s := by
  refine funext fun (i : S4x2048x4096.Idx) => ?_
  obtain ⟨p, q, n, rfl⟩ : ∃ (p : Fin 4) (q : Fin 2048) (n : Fin 4096), i = ix3 p q n := ⟨i 0, i 1, i 2, eq_ix3 i⟩
  exact add_congr (v11_at x w s p q n) (v13_at b p q n)

end Cert.ReferenceIdeal.RefVal

end
-- ==== Proof.lean ====
/-
  The certificate of the quantised linear layer: a Pallas kernel that dequantises the weight matrix group by group
  (wdq[k, n] = round_half_even(weight[n, k] / σ) · σ, σ = step_scales[k / 128, n] + ε) in one pallas_call and computes
  x @ wdq + bias in a second, K-blocked one (an f32 accumulator zeroed at k = 0, the output tile = accumulator + bias at
  the last k), against the jnp reference that forms the same wdq and one einsum over all 4096 in-features.

  Over the extended reals both results are out[b, s, n] = (Σ_k x[b, s, k] · wdq[k, n]) + bias[n] (Spec.lean): the kernel's
  grouping ((0 + Σ_block0) + Σ_block1 + …) of the sum is the reference's single sum because + on the extended reals is
  a commutative monoid; the format changes are the identity; division, rounding and the literal ε read the same on both
  sides. The precondition is never used.

  The frames: @main is region 0, two reshapes, region 1, one reshape. Each region's body is run symbolically once per
  control case; the buffers' contents at each boundary are a fold from the launch memory, read against the final memory
  (FrameI/ for the idealized program, FrameB/ for the word-level one: the same text, generic in the float instance).
-/
import proofs.«180972_j34677565948161_1_alg».proof.Defs
import proofs.«180972_j34677565948161_1_alg».proof.Proof.Gen.Kernel
import proofs.«180972_j34677565948161_1_alg».proof.Proof.Gen.KernelIdeal
import proofs.«180972_j34677565948161_1_alg».proof.Proof.Gen.ReferenceIdeal
import proofs.«180972_j34677565948161_1_alg».proof.Proof.Gen.ReferenceIdeal.Run
import proofs.«180972_j34677565948161_1_alg».proof.Proof.Gen.ReferenceIdeal.Read
import proofs.«180972_j34677565948161_1_alg».proof.Proof.Gen.Pre_finite_inputs
import proofs.«180972_j34677565948161_1_alg».proof.Proof.FrameB.Run
import proofs.«180972_j34677565948161_1_alg».proof.Proof.FrameI.Run
import proofs.«180972_j34677565948161_1_alg».proof.Proof.Result
import proofs.«180972_j34677565948161_1_alg».proof.Proof.RefVal

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.Frm.frame m ρ

theorem frame_ki [Cert.KernelIdeal.Facts] [Cert.Pre_finite_inputs.Facts] : Cert.frame_KernelIdeal :=
  fun m ρ _ => Cert.KernelIdeal.Frm.frame m ρ

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The kernel's run ends with the result buffer at `out` of its arguments, the reference's with its result at the same
    function of arguments that agree. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Frm.run_all (F := Ideal) m ρ)
    exact ⟨(h c _ (Cert.KernelIdeal.Frm.mem_uc Cert.KernelIdeal.main_v4 (by decide))).trans (Cert.KernelIdeal.Val.result_eq m c),
      (h c _ (Cert.KernelIdeal.Frm.mem_uc Cert.KernelIdeal.main_arg0 (by decide))).trans (Cert.KernelIdeal.Frm.W4_main_arg0 m c),
      (h c _ (Cert.KernelIdeal.Frm.mem_uc Cert.KernelIdeal.main_arg1 (by decide))).trans (Cert.KernelIdeal.Frm.W4_main_arg1 m c),
      (h c _ (Cert.KernelIdeal.Frm.mem_uc Cert.KernelIdeal.main_arg2 (by decide))).trans (Cert.KernelIdeal.Frm.W4_main_arg2 m c),
      (h c _ (Cert.KernelIdeal.Frm.mem_uc Cert.KernelIdeal.main_arg3 (by decide))).trans (Cert.KernelIdeal.Frm.W4_main_arg3 m c)⟩
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v14_eq (F := Ideal) _ _ _ _).trans (Cert.ReferenceIdeal.RefVal.ref_eq _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
